-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S64 .f32) (main_arg7 : FVec F S64x5 .f32) (main_arg8 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x5 .f32 := Host.absf main_arg7
  let main_cst_8 : FVec F S_ .f32 := constant S_ .f32 0x7F800000#32
  let main_v25 : FVec F S64x5 .f32 := broadcastInDim S64x5 ![] bcast_S_S64x5 main_cst_8
  let main_v26 : IVec S64x5 1 := cmpf .olt main_v24 main_v25
  let main_c_9 : IVec S_ 1 := constantI S_ 1 1#1
  let main_v27 : IVec S_ 1 := (fun x v => Host.reduce IntOp.andi x v reducesTo_S64x5_S_d0_1 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S20000 32) (main_arg3 : FVec F S128x64 .f32) (main_arg4 : FVec F S64 .f32) (main_arg5 : FVec F S64x64 .f32) (main_arg6 : FVec F S64 .f32) (main_arg7 : FVec F S64x5 .f32) (main_arg8 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S20000x1 : Shape := ⟨2, ![20000, 1]⟩
abbrev S20000x64 : Shape := ⟨2, ![20000, 64]⟩
abbrev S1x5 : Shape := ⟨2, ![1, 5]⟩
abbrev S20000x5 : Shape := ⟨2, ![20000, 5]⟩
abbrev S5000x64 : Shape := ⟨2, ![5000, 64]⟩
abbrev S5000x5 : Shape := ⟨2, ![5000, 5]⟩

abbrev nBuf : Space → Nat
  | .hbm => 98
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S20000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .i32⟩
  | .hbm, ⟨88, _⟩ => ⟨S20000, .i32⟩
  | .hbm, ⟨89, _⟩ => ⟨S20000, .i1⟩
  | .hbm, ⟨90, _⟩ => ⟨S_, .i32⟩
  | .hbm, ⟨91, _⟩ => ⟨S20000, .i32⟩
  | .hbm, ⟨92, _⟩ => ⟨S20000, .i32⟩
  | .hbm, ⟨93, _⟩ => ⟨S20000, .i32⟩
  | .hbm, ⟨94, _⟩ => ⟨S20000x1, .i32⟩
  | .hbm, ⟨95, _⟩ => ⟨S20000x64, .f32⟩
  | .hbm, ⟨96, _⟩ => ⟨S1x5, .f32⟩
  | .hbm, ⟨97, _⟩ => ⟨S20000x5, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S5000x64, .f32⟩
  | .local _ .vmem, ⟨21, _⟩ => ⟨S5000x64, .f32⟩
  | .local _ .vmem, ⟨22, _⟩ => ⟨S64x5, .f32⟩
  | .local _ .vmem, ⟨23, _⟩ => ⟨S1x5, .f32⟩
  | .local _ .vmem, ⟨24, _⟩ => ⟨S5000x5, .f32⟩
  | .local _ .vmem, ⟨25, _⟩ => ⟨S5000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x5 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x5 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S20000 : S_.BroadcastsInDim S20000 (![] : Fin 0 → Fin S20000.rank)
  bcast_S20000_S20000x1_0 : S20000.BroadcastsInDim S20000x1 (![0] : Fin 1 → Fin S20000x1.rank)
  shapeCasts_S5_S1x5 : S5.ShapeCasts S1x5
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S20000x1_S20000x64_1_0_n_n_0_1_164_wf : GatherDims.WF S100000x64 S20000x1 S20000x64 [1] [0] [] [0] [] 1 ![1, 64]
  dot_S5000x64_S64x5_S5000x5_1_0_0_1_n_n_wf : DotDims.WF S5000x64 S64x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S20000x64.size a
  hwx4_0 : ∀ i : grid4.Coords, EltTy.bits .f32 = 32 ∨ (Rect.block (s := S20000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x5.size a ≤ S64x5.size a
  hwx4_1 : ∀ i : grid4.Coords, EltTy.bits .f32 = 32 ∨ (Rect.block (s := S64x5) S64x5.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x5.size a ≤ S1x5.size a
  hwx4_2 : ∀ i : grid4.Coords, EltTy.bits .f32 = 32 ∨ (Rect.block (s := S1x5) S1x5.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x5.size a ≤ S20000x5.size a
  hwx4_3 : ∀ i : grid4.Coords, EltTy.bits .f32 = 32 ∨ (Rect.block (s := S20000x5) S5000x5.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S20000x1_S20000x64_1_0_n_n_0_1_164 : GatherDims S100000x64 S20000x1 S20000x64 where
  offsetDims := [1]
  collapsedSliceDims := [0]
  operandBatchingDims := []
  startIndicesBatchingDims := []
  startIndexMap := [0]
  indexVectorDim := 1
  sliceSizes := ![1, 64]
  wf := gather_S100000x64_S20000x1_S20000x64_1_0_n_n_0_1_164_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x5.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x5.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S20000x1 : Shape := ⟨2, ![20000, 1]⟩
abbrev S20000x64 : Shape := ⟨2, ![20000, 64]⟩
abbrev S20000x5 : Shape := ⟨2, ![20000, 5]⟩
abbrev S1x5 : Shape := ⟨2, ![1, 5]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S20000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S_, .f32⟩
  | .hbm, ⟨71, _⟩ => ⟨S100000x64, .f32⟩
  | .hbm, ⟨72, _⟩ => ⟨S100000x64, .i1⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x64, .f32⟩
  | .hbm, ⟨87, _⟩ => ⟨S1700000x1, .f32⟩
  | .hbm, ⟨88, _⟩ => ⟨S1700000x64, .f32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S_, .f32⟩
  | .hbm, ⟨99, _⟩ => ⟨S100000x64, .f32⟩
  | .hbm, ⟨100, _⟩ => ⟨S100000x64, .i1⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S_, .i32⟩
  | .hbm, ⟨106, _⟩ => ⟨S20000, .i32⟩
  | .hbm, ⟨107, _⟩ => ⟨S20000, .i1⟩
  | .hbm, ⟨108, _⟩ => ⟨S_, .i32⟩
  | .hbm, ⟨109, _⟩ => ⟨S20000, .i32⟩
  | .hbm, ⟨110, _⟩ => ⟨S20000, .i32⟩
  | .hbm, ⟨111, _⟩ => ⟨S20000, .i32⟩
  | .hbm, ⟨112, _⟩ => ⟨S20000x1, .i32⟩
  | .hbm, ⟨113, _⟩ => ⟨S20000x64, .f32⟩
  | .hbm, ⟨114, _⟩ => ⟨S20000x5, .f32⟩
  | .hbm, ⟨115, _⟩ => ⟨S1x5, .f32⟩
  | .hbm, ⟨116, _⟩ => ⟨S20000x5, .f32⟩
  | .hbm, ⟨117, _⟩ => ⟨S20000x5, .f32⟩
  | .hbm, ⟨118, _⟩ => ⟨S20000x5, .f32⟩
  | .hbm, ⟨119, _⟩ => ⟨S20000x5, .f32⟩
  | .hbm, ⟨120, _⟩ => ⟨S_, .f32⟩
  | .hbm, ⟨121, _⟩ => ⟨S20000x5, .f32⟩
  | .hbm, ⟨122, _⟩ => ⟨S20000x5, .f32⟩
  | .hbm, ⟨123, _⟩ => ⟨S_, .f32⟩
  | .hbm, ⟨124, _⟩ => ⟨S20000x5, .f32⟩
  | .hbm, ⟨125, _⟩ => ⟨S20000x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_c_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S5_S1x5_1 : S5.BroadcastsInDim S1x5 (![1] : Fin 1 → Fin S1x5.rank)
  bcast_S1x5_S20000x5_0_1 : S1x5.BroadcastsInDim S20000x5 (![0, 1] : Fin 2 → Fin S20000x5.rank)
  bcast_S_S20000x5 : S_.BroadcastsInDim S20000x5 (![] : Fin 0 → Fin S20000x5.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S20000x1_S20000x64_1_0_n_n_0_1_164_wf : GatherDims.WF S100000x64 S20000x1 S20000x64 [1] [0] [] [0] [] 1 ![1, 64]
  dot_S20000x64_S64x5_S20000x5_1_0_0_1_n_n_wf : DotDims.WF S20000x64 S64x5 S20000x5 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S20000x1_S20000x64_1_0_n_n_0_1_164 : GatherDims S100000x64 S20000x1 S20000x64 where
  offsetDims := [1]
  collapsedSliceDims := [0]
  operandBatchingDims := []
  startIndicesBatchingDims := []
  startIndexMap := [0]
  indexVectorDim := 1
  sliceSizes := ![1, 64]
  wf := gather_S100000x64_S20000x1_S20000x64_1_0_n_n_0_1_164_wf
def dot_S20000x64_S64x5_S20000x5_1_0_0_1_n_n : DotDims S20000x64 S64x5 S20000x5 where
  lhsContracting := [1]
  rhsContracting := [0]
  lhsNonContracting := [0]
  rhsNonContracting := [1]
  lhsBatch := []
  rhsBatch := []
  wf := dot_S20000x64_S64x5_S20000x5_1_0_0_1_n_n_wf

class Facts : Prop extends Facts₀ where

variable [Facts]
-- ==== Proof.Keep.lean ====
/-
  What each stretch of host operations writes, and hence what it leaves alone: every value of @main is written
  once, by one operation or one region, so a buffer read later than it was written still holds that value. One
  list of written buffers per stretch, and per boundary of @main the equation "not written here, so as before".
-/
import proofs.«159535_j30167850287800_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers written by the first stretch (edge lists, degrees). -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ ((hostOps0_W).map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- The buffers written by the outlined select of the inverse square roots. -/
abbrev hostOps0_1_W : List (Ref sig .tc) := [main_call0_v0, main_call0_v1, main_v14]
theorem hostOps0_1_writes : (hostOps0_1 : List (HloOp τ sig (Elt F))).Forall fun op => op.writes ⊆ ((hostOps0_1_W).map (Proc.devRef (τ := τ) .tc)).toFinset := by
  simp only [hostOps0_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- The buffers written by the stretch that makes the edge coefficients. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ ((hostOps0_2_W).map (Proc.devRef (τ := τ) .tc)).toFinset := by
  simp only [hostOps0_2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- The buffers written by the first aggregation. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ ((hostOps1_W).map (Proc.devRef (τ := τ) .tc)).toFinset := by
  simp only [hostOps1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- The buffers written by the second aggregation. -/
abbrev hostOps3_W : List (Ref sig .tc) := [main_c_9, main_v47, main_v48, main_c_10, main_v49, main_v50, main_v51, main_v52, main_v53, main_v54, main_v55, main_v56, main_cst_11, main_v57, main_v58, main_v59, main_v60]
theorem hostOps3_writes : (hostOps3 : List (HloOp τ sig (Elt F))).Forall fun op => op.writes ⊆ ((hostOps3_W).map (Proc.devRef (τ := τ) .tc)).toFinset := by
  simp only [hostOps3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- The buffers written by the row selection. -/
abbrev hostOps4_W : List (Ref sig .tc) := [main_c_12, main_v62, main_v63, main_c_13, main_v64, main_v65, main_v66, main_v67, main_v68, main_v69]
theorem hostOps4_writes : (hostOps4 : List (HloOp τ sig (Elt F))).Forall fun op => op.writes ⊆ ((hostOps4_W).map (Proc.devRef (τ := τ) .tc)).toFinset := by
  simp only [hostOps4, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-! ## Boundary by boundary: a buffer not written at this step holds what it held before -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h

/-- A buffer that no operation before the first region writes holds its launch contents when that region is entered. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans ((W2_of m ρ c r h1).trans ((W1_of m ρ c r h0).trans rfl))

end Cert.KernelIdeal.Keep

end
-- ==== Proof.Spec.lean ====
/-
  What the five kernel regions compute, array by array, at the ideal values (extended reals, exact operations):
  the two dense projections (every row of the node features times a weight matrix), the bias followed by the
  leaky rectifier with slope f32(0.01), and the head (a projection of the selected rows, a bias, the logistic
  function). Each is ONE function of whole arrays, index by index; the kernel computes it block of rows by block
  of rows and the reference in one host operation each.
-/
import proofs.«159535_j30167850287800_1_alg».proof.KernelIdeal
import Idealize.ShloMosaic.Lib.ValueIdx
import Idealize.ShloMosaic.PureOps.Ideal

noncomputable section

open scoped BigOperators

namespace Cert.Spec

open Idealize.ShloMosaic Idealize.ShloMosaic.ValueIdx Cert.KernelIdeal

/-- Node features times the first weight matrix: entry (n, j) is the sum over the 128 input channels k of
    x[n, k] · w[k, j]. -/
def proj128 (x : FVec Ideal S100000x128 .f32) (w : FVec Ideal S128x64 .f32) : FVec Ideal S100000x64 .f32 :=
  fun i => ∑ k : Fin 128, x (ix2 (i 0) k) * w (ix2 k (i 1))

/-- Hidden features times the second weight matrix: entry (n, j) is the sum over the 64 hidden channels k of
    h[n, k] · w[k, j]. -/
def proj64 (h : FVec Ideal S100000x64 .f32) (w : FVec Ideal S64x64 .f32) : FVec Ideal S100000x64 .f32 :=
  fun i => ∑ k : Fin 64, h (ix2 (i 0) k) * w (ix2 k (i 1))

/-- The leaky rectifier on one extended real: y where y ≥ 0, and f32(0.01) · y elsewhere (the slope is the
    binary value of the literal, the same word on both sides). -/
def leaky (y : EReal) : EReal :=
  Scalar.select (FloatOps.cmpf (F := Ideal) (φ := .f32) .oge y (Ideal.ofBits .f32 0x00000000#32)) y
    (Ideal.ofBits .f32 0x3C23D70A#32 * y)

/-- Aggregated features plus the per-channel bias, through the leaky rectifier: entry (n, j) is
    leaky (a[n, j] + b[j]). -/
def biasAct (a : FVec Ideal S100000x64 .f32) (b : FVec Ideal S64 .f32) : FVec Ideal S100000x64 .f32 :=
  fun i => leaky (a i + b (ix1 (i 1)))

/-- The head on the selected rows: entry (r, j) is logistic (∑ k, h[r, k] · w[k, j] + b[j]). -/
def head (h : FVec Ideal S20000x64 .f32) (w : FVec Ideal S64x5 .f32) (b : FVec Ideal S5 .f32) : FVec Ideal S20000x5 .f32 :=
  fun i => Ideal.logistic ((∑ k : Fin 64, h (ix2 (i 0) k) * w (ix2 k (i 1))) + b (ix1 (i 1)))

/-- The same with the bias given as a one-row matrix, as the kernel's window holds it: entry (n, j) is
    leaky (a[n, j] + b[0, j]). -/
def biasActRow (a : FVec Ideal S100000x64 .f32) (b : FVec Ideal S1x64 .f32) : FVec Ideal S100000x64 .f32 :=
  fun i => leaky (a i + b (ix2 (0 : Fin 1) (i 1)))

/-- The head with its bias given as a one-row matrix: entry (r, j) is logistic (∑ k, h[r, k] · w[k, j] + b[0, j]). -/
def headRow (h : FVec Ideal S20000x64 .f32) (w : FVec Ideal S64x5 .f32) (b : FVec Ideal S1x5 .f32) : FVec Ideal S20000x5 .f32 :=
  fun i => Ideal.logistic ((∑ k : Fin 64, h (ix2 (i 0) k) * w (ix2 k (i 1))) + b (ix2 (0 : Fin 1) (i 1)))

end Cert.Spec

end
-- ==== Proof.HostStages.lean ====
/-
  The host operations that the kernel's program and the reference share, as functions of the values they read:
  the edge list with one self-loop per node appended, the symmetric normalization coefficient of each edge
  (the inverse square roots of the in-degrees at its two endpoints, zero where the degree is not positive), the
  aggregation of one layer (gather the source rows, scale each by its edge's coefficient, scatter-add into the
  destination rows) and the selection of the rows the head reads. Negative indices wrap by the array's extent,
  as the programs' indexing does. Nothing here is opened by the proof: both programs apply these same functions.
-/
import proofs.«159535_j30167850287800_1_alg».proof.Proof.Gen.KernelIdeal

noncomputable section

namespace Cert.KernelIdeal.Stages

open Idealize.ShloMosaic Cert.KernelIdeal Cert.KernelIdeal.Facts₀

variable {F : FTy → Type} [FloatOps F]

/-- The source endpoint of every edge, then the nodes themselves (the self-loops). -/
def srcSl (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination endpoint of every edge, then the nodes themselves. -/
def dstSl (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A list of node numbers as gather start indices: a negative one wraps by the number of nodes. -/
def wrapCol (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The in-degree of every node, self-loop included: ones scatter-added at the destinations. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- The inverse square root of a positive degree, zero otherwise. -/
def invSqrt (deg : (⟨S100000, .f32⟩ : BufTy).Contents (Elt F)) : (⟨S100000, .f32⟩ : BufTy).Contents (Elt F) :=
  select (cmpf .ogt deg (broadcastInDim S100000 ![] bcast_S_S100000 (constant S_ .f32 0x00000000#32))) (Host.rsqrt deg)
    (broadcastInDim S100000 ![] bcast_S_S100000 (id (constant S_ .f32 0x00000000#32)))

/-- Each edge's coefficient: the product of the inverse square roots at its source and at its destination. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (invSqrt (degree dst)) (wrapCol src))
    (Host.gather gather_S100000_S1700000x1_S1700000_n_0_n_n_0_1_1 (invSqrt (degree dst)) (wrapCol dst))

/-- One layer's aggregation: row n of the result is the sum, over the edges into n, of the projected source row
    times the edge's coefficient. -/
def aggregate (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (wrapCol src))
      (broadcastInDim S1700000x64 ![0, 1] bcast_S1700000x1_S1700000x64_0_1 (broadcastInDim S1700000x1 ![0] bcast_S1700000_S1700000x1_0 nrm)))

/-- The rows of the hidden features that the index list names (a negative index wraps). -/
def selectRows (h : (⟨S100000x64, .f32⟩ : BufTy).Contents (Elt F)) (idx : (⟨S20000, .i32⟩ : BufTy).Contents (Elt F)) :
    (⟨S20000x64, .f32⟩ : BufTy).Contents (Elt F) :=
  Host.gather gather_S100000x64_S20000x1_S20000x64_1_0_n_n_0_1_164 h
    (broadcastInDim S20000x1 ![0] bcast_S20000_S20000x1_0
      (select (cmpi .slt idx (broadcastInDim S20000 ![] bcast_S_S20000 (constantI S_ 32 0#32)))
        (addi idx (broadcastInDim S20000 ![] bcast_S_S20000 (constantI S_ 32 100000#32))) idx))

end Cert.KernelIdeal.Stages

end
-- ==== Proof.Composite.lean ====
/-
  The whole computation as one function of the nine arguments, at the ideal values: two graph-convolution layers
  (project, aggregate over the self-looped edge list with the symmetric normalization, add the bias, leaky
  rectifier), the selection of the listed rows, and the logistic head on them. Both programs end at these two
  functions of their arguments.
-/
import proofs.«159535_j30167850287800_1_alg».proof.Proof.Spec
import proofs.«159535_j30167850287800_1_alg».proof.Proof.HostStages

noncomputable section

namespace Cert.Composite

open Idealize.ShloMosaic Cert.KernelIdeal Cert.KernelIdeal.Stages

/-- One layer's aggregation of projected features over the graph the edge list gives. -/
def layerAgg (h : FVec Ideal S100000x64 .f32) (ei : (⟨S2x1600000, .i32⟩ : BufTy).Contents (Elt Ideal)) : FVec Ideal S100000x64 .f32 :=
  aggregate (F := Ideal) h (srcSl (F := Ideal) ei) (dstSl (F := Ideal) ei) (edgeNorm (F := Ideal) (srcSl (F := Ideal) ei) (dstSl (F := Ideal) ei))

/-- The hidden features after the first layer. -/
def hidden1 (x : FVec Ideal S100000x128 .f32) (ei : (⟨S2x1600000, .i32⟩ : BufTy).Contents (Elt Ideal))
    (W0 : FVec Ideal S128x64 .f32) (b0 : FVec Ideal S64 .f32) : FVec Ideal S100000x64 .f32 :=
  Cert.Spec.biasAct (layerAgg (Cert.Spec.proj128 x W0) ei) b0

/-- The hidden features after the second layer. -/
def hidden2 (x : FVec Ideal S100000x128 .f32) (ei : (⟨S2x1600000, .i32⟩ : BufTy).Contents (Elt Ideal))
    (W0 : FVec Ideal S128x64 .f32) (b0 : FVec Ideal S64 .f32) (W1 : FVec Ideal S64x64 .f32) (b1 : FVec Ideal S64 .f32) :
    FVec Ideal S100000x64 .f32 :=
  Cert.Spec.biasAct (layerAgg (Cert.Spec.proj64 (hidden1 x ei W0 b0) W1) ei) b1

/-- The first result: the rows of the second layer's features that the index list names. -/
def selected (x : FVec Ideal S100000x128 .f32) (ei : (⟨S2x1600000, .i32⟩ : BufTy).Contents (Elt Ideal))
    (idx : (⟨S20000, .i32⟩ : BufTy).Contents (Elt Ideal))
    (W0 : FVec Ideal S128x64 .f32) (b0 : FVec Ideal S64 .f32) (W1 : FVec Ideal S64x64 .f32) (b1 : FVec Ideal S64 .f32) :
    FVec Ideal S20000x64 .f32 :=
  selectRows (F := Ideal) (hidden2 x ei W0 b0 W1 b1) idx

/-- The second result: the logistic head on the selected rows. -/
def output (x : FVec Ideal S100000x128 .f32) (ei : (⟨S2x1600000, .i32⟩ : BufTy).Contents (Elt Ideal))
    (idx : (⟨S20000, .i32⟩ : BufTy).Contents (Elt Ideal))
    (W0 : FVec Ideal S128x64 .f32) (b0 : FVec Ideal S64 .f32) (W1 : FVec Ideal S64x64 .f32) (b1 : FVec Ideal S64 .f32)
    (Wm : FVec Ideal S64x5 .f32) (bm : FVec Ideal S5 .f32) : FVec Ideal S20000x5 .f32 :=
  Cert.Spec.head (selected x ei idx W0 b0 W1 b1) Wm bm

end Cert.Composite

end
-- ==== Proof.SpecRow.lean ====
/-
  A bias of 64 (or 5) channels reshaped to a one-row matrix reads, at row 0 and column j, the bias at j: so the
  row-shaped forms of the bias stage and of the head are the plain ones.
-/
import proofs.«159535_j30167850287800_1_alg».proof.Proof.Gen.KernelIdeal
import proofs.«159535_j30167850287800_1_alg».proof.Proof.Spec
import Idealize.ShloMosaic.Lib.ValueIdx
import Idealize.ShloMosaic.Lib.ValueLayout
import Idealize.ShloMosaic.Lib.Pipeline.Value

noncomputable section

open scoped BigOperators

namespace Cert.Spec

open Cert.KernelIdeal Cert.KernelIdeal.Facts₀ Idealize.ShloMosaic Idealize.ShloMosaic.ValueIdx

/-- The bias stage with the bias reshaped [64] → [1, 64] is the plain bias stage. -/
theorem biasActRow_reshape (a : FVec Ideal S100000x64 .f32) (b : FVec Ideal S64 .f32) :
    biasActRow a (shapeCast S1x64 b shapeCasts_S64_S1x64) = biasAct a b := by
  funext i
  exact congrArg (fun z => leaky (a i + z)) (shapeCast_a_1a_apply b shapeCasts_S64_S1x64 (0 : Fin 1) (i 1))

/-- The head with the bias reshaped [5] → [1, 5] is the plain head. -/
theorem headRow_reshape (h : FVec Ideal S20000x64 .f32) (w : FVec Ideal S64x5 .f32) (b : FVec Ideal S5 .f32) :
    headRow h w (shapeCast S1x5 b shapeCasts_S5_S1x5) = head h w b := by
  funext i
  exact congrArg (fun z => Ideal.logistic ((∑ k : Fin 64, h (ix2 (i 0) k) * w (ix2 k (i 1))) + z))
    (shapeCast_a_1a_apply b shapeCasts_S5_S1x5 (0 : Fin 1) (i 1))

end Cert.Spec

end
-- ==== Proof.Region0.lean ====
/-
  Region 0 (the first projection) at the ideal values: whatever the buffers hold when the region is entered, the
  output array ends at the node features times the weight matrix, row block by row block (ten blocks of 10000 rows).
-/
import proofs.«159535_j30167850287800_1_alg».proof.Proof.Gen.KernelIdeal.Frame
import proofs.«159535_j30167850287800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-! ## The contraction's index maps, axis by axis -/

/-- The left operand's row is the output's row. -/
theorem lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- The left operand's column is the summation index. -/
theorem lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q

/-- The right operand's row is the summation index. -/
theorem rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q

/-- The right operand's column is the output's column. -/
theorem rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-! ## The body's payload at an index -/

/-- Entry (p, q) of the block product is the sum over the 128 channels k of x[p, k] · w[k, q]. -/
theorem pay_apply (x : FVec Ideal S10000x128 .f32) (w : FVec Ideal S128x64 .f32) (p : Fin 10000) (q : Fin 64) :
    k0_pay1 (F := Ideal) x w (ix2 p q) = ∑ k : Fin 128, x (ix2 p k) * w (ix2 k q) := by
  unfold k0_pay1
  refine (Ideal.matmul_constant_zero_apply dot_S10000x128_S128x64_S10000x64_1_0_0_1_n_n none x w (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q)
      ((contrEquiv1 dot_S10000x128_S128x64_S10000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x64_S10000x64_1_0_0_1_n_n.rhsIdx (ix2 p q)
      ((contrEquiv1 dot_S10000x128_S128x64_S10000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The index maps over the ten grid points: the feature block and the output block are both the t-th block of rows
    (block column 0), the weight is its one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some grid point's. -/
theorem idx_onto : ∀ b : Fin 10, ∃ t : Fin cfg0.N, win0_2.index t = ![b.val, 0] :=
  (by decide +kernel : ∀ b : Fin 10, ∃ t : Fin grid0.N, win0_2.index t = ![b.val, 0])

/-- Row p, channel k of the feature block at point t is the feature array at the row the output block's row p sits
    on, channel k. -/
theorem x_block (c : Dev nD) (t : Fin cfg0.N) (p : Fin 10000) (q : Fin 64) (k : Fin 128) :
    iblk0 V c 0 t (ix2 p k)
      = (V c main_arg0 : FVec Ideal S100000x128 .f32) (ix2 ((((cfg0.win 2).blk t).view.emb (ix2 p q)) 0) k) := by
  obtain ⟨e0, e1, e2, e3, e5⟩ := idx_facts t
  unfold iblk0
  show (V c main_arg0 : FVec Ideal S100000x128 .f32) (((cfg0.win 0).blk t).view.emb (ix2 p k)) = _
  refine congrArg _ (funext fun a => Fin.ext ?_)
  match a with
  | ⟨0, _⟩ =>
    show win0_0.index t (0 : Fin 2) * 10000 + 1 * p.val = win0_2.index t (0 : Fin 2) * 10000 + 1 * p.val
    omega
  | ⟨1, _⟩ =>
    show win0_0.index t (1 : Fin 2) * 128 + 1 * k.val = k.val
    omega

/-- Channel k, column q of the weight block at any point is the weight array there. -/
theorem w_block (c : Dev nD) (t : Fin cfg0.N) (p : Fin 10000) (q : Fin 64) (k : Fin 128) :
    iblk0 V c 1 t (ix2 k q)
      = (V c main_arg3 : FVec Ideal S128x64 .f32) (ix2 k ((((cfg0.win 2).blk t).view.emb (ix2 p q)) 1)) := by
  obtain ⟨e0, e1, e2, e3, e5⟩ := idx_facts t
  unfold iblk0
  show (V c main_arg3 : FVec Ideal S128x64 .f32) (((cfg0.win 1).blk t).view.emb (ix2 k q)) = _
  refine congrArg _ (funext fun a => Fin.ext ?_)
  match a with
  | ⟨0, _⟩ =>
    show win0_1.index t (0 : Fin 2) * 128 + 1 * k.val = k.val
    omega
  | ⟨1, _⟩ =>
    show win0_1.index t (1 : Fin 2) * 64 + 1 * q.val = win0_2.index t (1 : Fin 2) * 64 + 1 * q.val
    omega

/-- What grid point t writes back is block t of the whole product. -/
theorem flushed_eq (c : Dev nD) (t : Fin cfg0.N) :
    (dat0 (F := Ideal) V c).flushed 2 t
      = ((cfg0.win 2).blk t).view.read (Elt Ideal) (Cert.Spec.proj128 (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.Spec.proj128 (V c main_arg0) (V c main_arg3) (((cfg0.win 2).blk t).view.emb (ix2 p q))
  refine (pay_apply _ _ p q).trans ?_
  unfold Cert.Spec.proj128
  refine Finset.sum_congr rfl fun k _ => ?_
  rw [x_block V c t p q k, w_block V c t p q k]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r of the array is in the block of the point whose block index is r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after all ten points is the whole product: every row is covered, and every point writes its
    block of it. -/
theorem final (c : Dev nD) :
    (dat0 (F := Ideal) V c).arrAt 2 cfg0.N = Cert.Spec.proj128 (V c main_arg0) (V c main_arg3) := by
  exact (dat0 (F := Ideal) V c).arrAt_eq_of_cover 2 (Cert.Spec.proj128 (V c main_arg0) (V c main_arg3))
    (fun t _ => flushed_eq V c t) cover

end Cert.KernelIdeal.Region0

end
-- ==== Proof.Region1.lean ====
/-
  Region 1 (bias and leaky rectifier after the first aggregation) at the ideal values: the output array ends at
  leaky (a + b), the bias read from its one-row window, row block by row block.
-/
import proofs.«159535_j30167850287800_1_alg».proof.Proof.Gen.KernelIdeal.Frame
import proofs.«159535_j30167850287800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, spelt as a constant function. -/
theorem hz : (![0, 0] : Fin 2 → Nat) = fun _ => 0 := funext fun a => by fin_cases a <;> rfl

/-- The body's payload at entry (p, q) of its block: the leaky rectifier of the first block's entry plus the bias row's
    entry at channel q (both shape casts are identities; the row is repeated down the 10000 rows). -/
theorem pay_apply (x0 : Vec Ideal S10000x64 .f32) (x1 : Vec Ideal S1x64 .f32) (p : Fin 10000) (q : Fin 64) :
    k1_pay1 (F := Ideal) x0 x1 (ix2 p q) = Cert.Spec.leaky (x0 (ix2 p q) + x1 (ix2 (0 : Fin 1) q)) := by
  have e0 : shapeCast S10000x64 x0 shapeCasts_S10000x64_S10000x64 = x0 := shapeCast_self _ _
  have e1 : shapeCast S1x64 x1 shapeCasts_S1x64_S1x64 = x1 := shapeCast_self _ _
  have e2 : broadcastTo S10000x64 x1 broadcasts_S1x64_S10000x64 (ix2 p q) = x1 (ix2 (0 : Fin 1) q) :=
    broadcastTo_1b_ab_apply x1 _ p q
  unfold k1_pay1
  rw [e0, e1]
  show Cert.Spec.leaky (x0 (ix2 p q) + broadcastTo S10000x64 x1 broadcasts_S1x64_S10000x64 (ix2 p q)) = _
  rw [e2]

/-- The three index maps, decided over the ten grid points: the row windows sit at block row t, column block 0; the
    bias window always at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the block: the payload at (p, q) is the whole-array function at row r, channel q, once the
    two input blocks are read where that row lies. -/
theorem point_eq (a : FVec Ideal S100000x64 .f32) (b : FVec Ideal S1x64 .f32)
    (x0 : Vec Ideal S10000x64 .f32) (x1 : Vec Ideal S1x64 .f32) (p : Fin 10000) (q : Fin 64) (r : Fin 100000)
    (h0 : x0 (ix2 p q) = a (ix2 r q)) (h1 : x1 (ix2 (0 : Fin 1) q) = b (ix2 (0 : Fin 1) q)) :
    k1_pay1 (F := Ideal) x0 x1 (ix2 p q) = Cert.Spec.biasActRow a b (ix2 r q) := by
  rw [pay_apply, h0, h1]; rfl

/-- A grid point is one of ten. -/
theorem tlt (t : Fin cfg1.N) : t.val < 10 := lt_of_lt_of_eq t.isLt N_1

/-- The output block's entry (p, q) at point t sits in the array at row 10000 t + p, channel q. -/
theorem emb_out (t : Fin cfg1.N) (p : Fin 10000) (q : Fin 64) :
    ((cfg1.win 2).blk t).view.emb (ix2 p q) = ix2 (⟨t.val * 10000 + p.val, by have := tlt t; omega⟩ : Fin 100000) q := by
  obtain ⟨e0, e1, e2, e3, e4, e5⟩ := idx_facts t
  funext a; apply Fin.ext
  match a with
  | ⟨0, _⟩ => show win1_2.index t (0 : Fin 2) * 10000 + 1 * p.val = t.val * 10000 + p.val; omega
  | ⟨1, _⟩ => show win1_2.index t (1 : Fin 2) * 64 + 1 * q.val = q.val; omega

/-- The first input's block at point t holds the same rows. -/
theorem blk0_apply (c : Dev nD) (t : Fin cfg1.N) (p : Fin 10000) (q : Fin 64) :
    iblk1 (F := Ideal) V c 0 t (ix2 p q) = V c main_v43 (ix2 (⟨t.val * 10000 + p.val, by have := tlt t; omega⟩ : Fin 100000) q) := by
  obtain ⟨e0, e1, e2, e3, e4, e5⟩ := idx_facts t
  unfold iblk1
  show V c main_v43 (((cfg1.win 0).blk t).view.emb (ix2 p q)) = _
  refine congrArg (V c main_v43) ?_
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

/-- The bias window's one block is the bias row itself. -/
theorem blk1_apply (c : Dev nD) (t : Fin cfg1.N) (q : Fin 64) :
    iblk1 (F := Ideal) V c 1 t (ix2 (0 : Fin 1) q) = V c main_v44 (ix2 (0 : Fin 1) q) := by
  obtain ⟨e0, e1, e2, e3, e4, e5⟩ := idx_facts t
  unfold iblk1
  show V c main_v44 (((cfg1.win 1).blk t).view.emb (ix2 (0 : Fin 1) q)) = _
  refine congrArg (V c main_v44) ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- What point t writes back is block t of the whole-array function of the region's two input arrays. -/
theorem flushed_eq (c : Dev nD) (t : Fin cfg1.N) :
    (dat1 (F := Ideal) V c).flushed 2 t
      = ((cfg1.win 2).blk t).view.read (Elt Ideal) (Cert.Spec.biasActRow (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = Cert.Spec.biasActRow (V c main_v43) (V c main_v44) (((cfg1.win 2).blk t).view.emb (ix2 p q))
  rw [emb_out t p q]
  exact point_eq _ _ _ _ p q _ (blk0_apply V c t p q) (blk1_apply V c t q)

/-- An index of the array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row r of the array lies in the block of point r / 10000, and every point writes its block back. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < cfg1.N := lt_of_lt_of_eq (by omega) N_1.symm
  obtain ⟨e0, e1, e2, e3, e4, e5⟩ := idx_facts ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    omega

/-- The output array after all ten points: leaky (a + b) index by index. -/
theorem final (c : Dev nD) :
    (dat1 (F := Ideal) V c).arrAt 2 cfg1.N = Cert.Spec.biasActRow (V c main_v43) (V c main_v44) :=
  (dat1 (F := Ideal) V c).arrAt_eq_of_cover 2 (Cert.Spec.biasActRow (V c main_v43) (V c main_v44))
    (fun t _ => flushed_eq V c t) cover

end Cert.KernelIdeal.Region1

end
-- ==== Proof.Region2.lean ====
/-
  Region 2 (the second projection) at the ideal values: the output array ends at the first layer's features times
  the second weight matrix, row block by row block.
-/
import proofs.«159535_j30167850287800_1_alg».proof.Proof.Gen.KernelIdeal.Frame
import proofs.«159535_j30167850287800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

/-! ## The contraction's index maps, axis by axis -/

/-- The left operand's row is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the summation index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the summation index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-! ## The body's payload at an index -/

/-- Entry (p, q) of the block product is the sum over the 64 hidden channels k of h[p, k] · w[k, q]; the reshape of
    the loaded block to its own shape changes nothing. -/
theorem pay_apply (h : FVec Ideal S10000x64 .f32) (w : FVec Ideal S64x64 .f32) (p : Fin 10000) (q : Fin 64) :
    k2_pay1 (F := Ideal) h w (ix2 p q) = ∑ k : Fin 64, h (ix2 p k) * w (ix2 k q) := by
  unfold k2_pay1
  refine (Ideal.matmul_constant_zero_apply dot_S10000x64_S64x64_S10000x64_1_0_0_1_n_n none
    (shapeCast S10000x64 h shapeCasts_S10000x64_S10000x64) w (ix2 p q)).trans ?_
  rw [shapeCast_self]
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The index maps over the ten grid points: the hidden-feature block and the output block are both the t-th block
    of rows (block column 0), the weight is its one block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some grid point's. -/
theorem idx_onto : ∀ b : Fin 10, ∃ t : Fin cfg2.N, win2_2.index t = ![b.val, 0] :=
  (by decide +kernel : ∀ b : Fin 10, ∃ t : Fin grid2.N, win2_2.index t = ![b.val, 0])

/-- Row p, channel k of the hidden-feature block at point t is the hidden-feature array at the row the output
    block's row p sits on, channel k. -/
theorem h_block (c : Dev nD) (t : Fin cfg2.N) (p : Fin 10000) (q : Fin 64) (k : Fin 64) :
    iblk2 V c 0 t (ix2 p k)
      = (V c main_v45 : FVec Ideal S100000x64 .f32) (ix2 ((((cfg2.win 2).blk t).view.emb (ix2 p q)) 0) k) := by
  obtain ⟨e0, e1, e2, e3, e5⟩ := idx_facts t
  unfold iblk2
  show (V c main_v45 : FVec Ideal S100000x64 .f32) (((cfg2.win 0).blk t).view.emb (ix2 p k)) = _
  refine congrArg _ (funext fun a => Fin.ext ?_)
  match a with
  | ⟨0, _⟩ =>
    show win2_0.index t (0 : Fin 2) * 10000 + 1 * p.val = win2_2.index t (0 : Fin 2) * 10000 + 1 * p.val
    omega
  | ⟨1, _⟩ =>
    show win2_0.index t (1 : Fin 2) * 64 + 1 * k.val = k.val
    omega

/-- Channel k, column q of the weight block at any point is the weight array there. -/
theorem w_block (c : Dev nD) (t : Fin cfg2.N) (p : Fin 10000) (q : Fin 64) (k : Fin 64) :
    iblk2 V c 1 t (ix2 k q)
      = (V c main_arg5 : FVec Ideal S64x64 .f32) (ix2 k ((((cfg2.win 2).blk t).view.emb (ix2 p q)) 1)) := by
  obtain ⟨e0, e1, e2, e3, e5⟩ := idx_facts t
  unfold iblk2
  show (V c main_arg5 : FVec Ideal S64x64 .f32) (((cfg2.win 1).blk t).view.emb (ix2 k q)) = _
  refine congrArg _ (funext fun a => Fin.ext ?_)
  match a with
  | ⟨0, _⟩ =>
    show win2_1.index t (0 : Fin 2) * 64 + 1 * k.val = k.val
    omega
  | ⟨1, _⟩ =>
    show win2_1.index t (1 : Fin 2) * 64 + 1 * q.val = win2_2.index t (1 : Fin 2) * 64 + 1 * q.val
    omega

/-- What grid point t writes back is block t of the whole product. -/
theorem flushed_eq (c : Dev nD) (t : Fin cfg2.N) :
    (dat2 (F := Ideal) V c).flushed 2 t
      = ((cfg2.win 2).blk t).view.read (Elt Ideal) (Cert.Spec.proj64 (V c main_v45) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Cert.Spec.proj64 (V c main_v45) (V c main_arg5) (((cfg2.win 2).blk t).view.emb (ix2 p q))
  refine (pay_apply _ _ p q).trans ?_
  unfold Cert.Spec.proj64
  refine Finset.sum_congr rfl fun k _ => ?_
  rw [h_block V c t p q k, w_block V c t p q k]

/-- An index of the array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- Row r of the array is in the block of the point whose block index is r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after all ten points is the whole product: every row is covered, and every point writes its
    block of it. -/
theorem final (c : Dev nD) :
    (dat2 (F := Ideal) V c).arrAt 2 cfg2.N = Cert.Spec.proj64 (V c main_v45) (V c main_arg5) := by
  exact (dat2 (F := Ideal) V c).arrAt_eq_of_cover 2 (Cert.Spec.proj64 (V c main_v45) (V c main_arg5))
    (fun t _ => flushed_eq V c t) cover

end Cert.KernelIdeal.Region2

end
-- ==== Proof.Region3.lean ====
/-
  Region 3 (bias and leaky rectifier after the second aggregation) at the ideal values: the output array ends at
  leaky (a + b), the bias read from its one-row window, row block by row block.
-/
import proofs.«159535_j30167850287800_1_alg».proof.Proof.Gen.KernelIdeal.Frame
import proofs.«159535_j30167850287800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, spelt as a constant function. -/
theorem hz : (![0, 0] : Fin 2 → Nat) = fun _ => 0 := funext fun a => by fin_cases a <;> rfl

/-- The body's payload at entry (p, q) of its block: the leaky rectifier of the first block's entry plus the bias row's
    entry at channel q (both shape casts are identities; the row is repeated down the 10000 rows). -/
theorem pay_apply (x0 : Vec Ideal S10000x64 .f32) (x1 : Vec Ideal S1x64 .f32) (p : Fin 10000) (q : Fin 64) :
    k3_pay1 (F := Ideal) x0 x1 (ix2 p q) = Cert.Spec.leaky (x0 (ix2 p q) + x1 (ix2 (0 : Fin 1) q)) := by
  have e0 : shapeCast S10000x64 x0 shapeCasts_S10000x64_S10000x64 = x0 := shapeCast_self _ _
  have e1 : shapeCast S1x64 x1 shapeCasts_S1x64_S1x64 = x1 := shapeCast_self _ _
  have e2 : broadcastTo S10000x64 x1 broadcasts_S1x64_S10000x64 (ix2 p q) = x1 (ix2 (0 : Fin 1) q) :=
    broadcastTo_1b_ab_apply x1 _ p q
  unfold k3_pay1
  rw [e0, e1]
  show Cert.Spec.leaky (x0 (ix2 p q) + broadcastTo S10000x64 x1 broadcasts_S1x64_S10000x64 (ix2 p q)) = _
  rw [e2]

/-- The three index maps, decided over the ten grid points: the row windows sit at block row t, column block 0; the
    bias window always at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of the block: the payload at (p, q) is the whole-array function at row r, channel q, once the
    two input blocks are read where that row lies. -/
theorem point_eq (a : FVec Ideal S100000x64 .f32) (b : FVec Ideal S1x64 .f32)
    (x0 : Vec Ideal S10000x64 .f32) (x1 : Vec Ideal S1x64 .f32) (p : Fin 10000) (q : Fin 64) (r : Fin 100000)
    (h0 : x0 (ix2 p q) = a (ix2 r q)) (h1 : x1 (ix2 (0 : Fin 1) q) = b (ix2 (0 : Fin 1) q)) :
    k3_pay1 (F := Ideal) x0 x1 (ix2 p q) = Cert.Spec.biasActRow a b (ix2 r q) := by
  rw [pay_apply, h0, h1]; rfl

/-- A grid point is one of ten. -/
theorem tlt (t : Fin cfg3.N) : t.val < 10 := lt_of_lt_of_eq t.isLt N_3

/-- The output block's entry (p, q) at point t sits in the array at row 10000 t + p, channel q. -/
theorem emb_out (t : Fin cfg3.N) (p : Fin 10000) (q : Fin 64) :
    ((cfg3.win 2).blk t).view.emb (ix2 p q) = ix2 (⟨t.val * 10000 + p.val, by have := tlt t; omega⟩ : Fin 100000) q := by
  obtain ⟨e0, e1, e2, e3, e4, e5⟩ := idx_facts t
  funext a; apply Fin.ext
  match a with
  | ⟨0, _⟩ => show win3_2.index t (0 : Fin 2) * 10000 + 1 * p.val = t.val * 10000 + p.val; omega
  | ⟨1, _⟩ => show win3_2.index t (1 : Fin 2) * 64 + 1 * q.val = q.val; omega

/-- The first input's block at point t holds the same rows. -/
theorem blk0_apply (c : Dev nD) (t : Fin cfg3.N) (p : Fin 10000) (q : Fin 64) :
    iblk3 (F := Ideal) V c 0 t (ix2 p q) = V c main_v59 (ix2 (⟨t.val * 10000 + p.val, by have := tlt t; omega⟩ : Fin 100000) q) := by
  obtain ⟨e0, e1, e2, e3, e4, e5⟩ := idx_facts t
  unfold iblk3
  show V c main_v59 (((cfg3.win 0).blk t).view.emb (ix2 p q)) = _
  refine congrArg (V c main_v59) ?_
  funext a; apply Fin.ext
  match a with
  | ⟨0, _⟩ => show win3_0.index t (0 : Fin 2) * 10000 + 1 * p.val = t.val * 10000 + p.val; omega
  | ⟨1, _⟩ => show win3_0.index t (1 : Fin 2) * 64 + 1 * q.val = q.val; omega

/-- The bias window's one block is the bias row itself. -/
theorem blk1_apply (c : Dev nD) (t : Fin cfg3.N) (q : Fin 64) :
    iblk3 (F := Ideal) V c 1 t (ix2 (0 : Fin 1) q) = V c main_v60 (ix2 (0 : Fin 1) q) := by
  obtain ⟨e0, e1, e2, e3, e4, e5⟩ := idx_facts t
  unfold iblk3
  show V c main_v60 (((cfg3.win 1).blk t).view.emb (ix2 (0 : Fin 1) q)) = _
  refine congrArg (V c main_v60) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- What point t writes back is block t of the whole-array function of the region's two input arrays. -/
theorem flushed_eq (c : Dev nD) (t : Fin cfg3.N) :
    (dat3 (F := Ideal) V c).flushed 2 t
      = ((cfg3.win 2).blk t).view.read (Elt Ideal) (Cert.Spec.biasActRow (V c main_v59) (V c main_v60)) := by
  show (cfg3.win 2).cut (grid3.coords t) ((dat3 (F := Ideal) V c).after 2 t) = _
  rw [after3_2]
  unfold out3_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (ix2 p q)
    = Cert.Spec.biasActRow (V c main_v59) (V c main_v60) (((cfg3.win 2).blk t).view.emb (ix2 p q))
  rw [emb_out t p q]
  exact point_eq _ _ _ _ p q _ (blk0_apply V c t p q) (blk1_apply V c t q)

/-- An index of the array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- Row r of the array lies in the block of point r / 10000, and every point writes its block back. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hlt : (i 0).val / 10000 < cfg3.N := lt_of_lt_of_eq (by omega) N_3.symm
  obtain ⟨e0, e1, e2, e3, e4, e5⟩ := idx_facts ⟨(i 0).val / 10000, hlt⟩
  have e4' : win3_2.index ⟨(i 0).val / 10000, hlt⟩ (0 : Fin 2) = (i 0).val / 10000 := e4
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    omega
  | ⟨1, _⟩ =>
    show win3_2.index ⟨(i 0).val / 10000, hlt⟩ (1 : Fin 2) * 64 ≤ (i 1).val
      ∧ (i 1).val < win3_2.index ⟨(i 0).val / 10000, hlt⟩ (1 : Fin 2) * 64 + 64
    omega

/-- The output array after all ten points: leaky (a + b) index by index. -/
theorem final (c : Dev nD) :
    (dat3 (F := Ideal) V c).arrAt 2 cfg3.N = Cert.Spec.biasActRow (V c main_v59) (V c main_v60) :=
  (dat3 (F := Ideal) V c).arrAt_eq_of_cover 2 (Cert.Spec.biasActRow (V c main_v59) (V c main_v60))
    (fun t _ => flushed_eq V c t) cover

end Cert.KernelIdeal.Region3

end
-- ==== Proof.Region4.lean ====
/-
  Region 4 (the head) at the ideal values: the output array ends at the logistic function of the selected rows
  times the head's weights plus its bias, block of 5000 rows by block.
-/
import proofs.«159535_j30167850287800_1_alg».proof.Proof.Gen.KernelIdeal.Frame
import proofs.«159535_j30167850287800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset on both axes, as the constant function. -/
theorem hz : (![0, 0] : Fin 2 → Nat) = fun _ => 0 := funext fun a => by fin_cases a <;> rfl

/-! ## The product's operand indices, axis by axis -/

/-- Rows of the left operand follow the output's row. -/
theorem lhs_axis0 (i : S5000x5.Idx) (q : dot_S5000x64_S64x5_S5000x5_1_0_0_1_n_n.contr.Idx) :
    (dot_S5000x64_S64x5_S5000x5_1_0_0_1_n_n.lhsIdx i q 0).val = (i 0).val := by
  unfold DotDims.lhsIdx
  rw [dif_neg (show ¬(0 : Fin S5000x64.rank) ∈ dot_S5000x64_S64x5_S5000x5_1_0_0_1_n_n.lhsBatch by decide),
    dif_pos (show (0 : Fin S5000x64.rank) ∈ dot_S5000x64_S64x5_S5000x5_1_0_0_1_n_n.lhsNonContracting by decide)]
  rfl

/-- Columns of the left operand follow the contracted coordinate. -/
theorem lhs_axis1 (i : S5000x5.Idx) (q : dot_S5000x64_S64x5_S5000x5_1_0_0_1_n_n.contr.Idx) :
    (dot_S5000x64_S64x5_S5000x5_1_0_0_1_n_n.lhsIdx i q 1).val = (q ⟨0, by decide⟩).val :=
  dot_S5000x64_S64x5_S5000x5_1_0_0_1_n_n.lhsIdx_val_of_single rfl i q

/-- Rows of the right operand follow the contracted coordinate. -/
theorem rhs_axis0 (i : S5000x5.Idx) (q : dot_S5000x64_S64x5_S5000x5_1_0_0_1_n_n.contr.Idx) :
    (dot_S5000x64_S64x5_S5000x5_1_0_0_1_n_n.rhsIdx i q 0).val = (q ⟨0, by decide⟩).val :=
  dot_S5000x64_S64x5_S5000x5_1_0_0_1_n_n.rhsIdx_val_of_single rfl i q

/-- Columns of the right operand follow the output's column. -/
theorem rhs_axis1 (i : S5000x5.Idx) (q : dot_S5000x64_S64x5_S5000x5_1_0_0_1_n_n.contr.Idx) :
    (dot_S5000x64_S64x5_S5000x5_1_0_0_1_n_n.rhsIdx i q 1).val = (i 1).val := by
  unfold DotDims.rhsIdx
  rw [dif_neg (show ¬(1 : Fin S64x5.rank) ∈ dot_S5000x64_S64x5_S5000x5_1_0_0_1_n_n.rhsBatch by decide),
    dif_pos (show (1 : Fin S64x5.rank) ∈ dot_S5000x64_S64x5_S5000x5_1_0_0_1_n_n.rhsNonContracting by decide)]
  rfl

/-- The block product into the zero accumulator, entry (p, q): the sum over the 64 channels of row p of the
    left block times column q of the weights. -/
theorem blockProduct_apply (x : FVec Ideal S5000x64 .f32) (w : FVec Ideal S64x5 .f32) (p : Fin 5000) (q : Fin 5) :
    matmul dot_S5000x64_S64x5_S5000x5_1_0_0_1_n_n none x w (constant (F := Ideal) S5000x5 .f32 0x00000000#32) (ix2 p q)
      = ∑ k : Fin 64, x (ix2 p k) * w (ix2 k q) := by
  show FloatOps.matmul _ none x w _ (ix2 p q) = _
  rw [Ideal.matmul_constant_zero_apply,
    ← Equiv.sum_comp (contrEquiv1 dot_S5000x64_S64x5_S5000x5_1_0_0_1_n_n 64 rfl rfl).symm]
  refine Finset.sum_congr rfl fun k _ => ?_
  have hk := contrEquiv1_symm_val dot_S5000x64_S64x5_S5000x5_1_0_0_1_n_n 64 rfl rfl k
  have el : dot_S5000x64_S64x5_S5000x5_1_0_0_1_n_n.lhsIdx (ix2 p q)
      ((contrEquiv1 dot_S5000x64_S64x5_S5000x5_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S5000x64_S64x5_S5000x5_1_0_0_1_n_n.rhsIdx (ix2 p q)
      ((contrEquiv1 dot_S5000x64_S64x5_S5000x5_1_0_0_1_n_n 64 rfl rfl).symm k) = ix2 k q :=
    funext fun a => Fin.ext (by
      match a with
      | ⟨0, _⟩ => exact (rhs_axis0 _ _).trans hk
      | ⟨1, _⟩ => exact rhs_axis1 _ _)
  rw [el, er]

/-- The body's payload at entry (p, q): the logistic function of the block product plus the bias row's entry q. -/
theorem payload_apply (x : Vec Ideal S5000x64 .f32) (w : Vec Ideal S64x5 .f32) (b : Vec Ideal S1x5 .f32)
    (p : Fin 5000) (q : Fin 5) :
    k4_pay1 (F := Ideal) x w b (ix2 p q)
      = Ideal.logistic ((∑ k : Fin 64, x (ix2 p k) * w (ix2 k q)) + b (ix2 (0 : Fin 1) q)) := by
  unfold k4_pay1
  show Ideal.logistic (_ + _) = _
  refine congrArg Ideal.logistic ?_
  refine congrArg₂ (· + ·) ?_ ?_
  · rw [shapeCast_self]
    exact blockProduct_apply x w p q
  · rw [shapeCast_self]
    exact broadcastTo_1b_ab_apply b _ p q

/-! ## Where each window's block sits, decided over the four grid points -/

/-- The printed index maps over the grid: the rows' window and the output's window move together down the rows,
    block t at point t; the weights' and the bias row's windows stay at their one block. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Every one of the four row blocks is some point's. -/
theorem idx_onto : ∀ r : Fin 4, ∃ t : Fin cfg4.N, win4_3.index t = ![r.val, 0] :=
  (by decide +kernel : ∀ r : Fin 4, ∃ t : Fin grid4.N, win4_3.index t = ![r.val, 0])

/-! ## The input blocks, entry by entry -/

/-- Entry (p, k) of the rows' block at point t is entry (5000 t + p, k) of the array of selected rows. -/
theorem rows_apply (c : Dev nD) (t : Fin cfg4.N) (p : Fin 5000) (k : Fin 64) (i : S20000x64.Idx)
    (h0 : (i 0).val = t.val * 5000 + p.val) (h1 : (i 1).val = k.val) :
    iblk4 V c 0 t (ix2 p k) = V c main_v68 i := by
  unfold iblk4
  show V c main_v68 (((cfg4.win 0).blk t).view.emb (ix2 p k)) = V c main_v68 i
  obtain ⟨e0, e1, -⟩ := idx_facts t
  refine congrArg (V c main_v68) (funext fun a => Fin.ext ?_)
  match a with
  | ⟨0, _⟩ => show win4_0.index t (0 : Fin 2) * 5000 + 1 * p.val = (i 0).val; omega
  | ⟨1, _⟩ => show win4_0.index t (1 : Fin 2) * 64 + 1 * k.val = (i 1).val; omega

/-- Entry (k, q) of the weights' block, at every point, is entry (k, q) of the weights. -/
theorem weights_apply (c : Dev nD) (t : Fin cfg4.N) (k : Fin 64) (q : Fin 5) (i : S64x5.Idx)
    (h0 : (i 0).val = k.val) (h1 : (i 1).val = q.val) :
    iblk4 V c 1 t (ix2 k q) = V c main_arg7 i := by
  unfold iblk4
  show V c main_arg7 (((cfg4.win 1).blk t).view.emb (ix2 k q)) = V c main_arg7 i
  obtain ⟨-, -, e2, e3, -⟩ := idx_facts t
  refine congrArg (V c main_arg7) (funext fun a => Fin.ext ?_)
  match a with
  | ⟨0, _⟩ => show win4_1.index t (0 : Fin 2) * 64 + 1 * k.val = (i 0).val; omega
  | ⟨1, _⟩ => show win4_1.index t (1 : Fin 2) * 5 + 1 * q.val = (i 1).val; omega

/-- Entry (0, q) of the bias row's block, at every point, is entry (0, q) of the bias row. -/
theorem bias_apply (c : Dev nD) (t : Fin cfg4.N) (q : Fin 5) (i : S1x5.Idx)
    (h0 : (i 0).val = 0) (h1 : (i 1).val = q.val) :
    iblk4 V c 2 t (ix2 (0 : Fin 1) q) = V c main_v69 i := by
  unfold iblk4
  show V c main_v69 (((cfg4.win 2).blk t).view.emb (ix2 (0 : Fin 1) q)) = V c main_v69 i
  obtain ⟨-, -, -, -, e4, e5, -⟩ := idx_facts t
  refine congrArg (V c main_v69) (funext fun a => Fin.ext ?_)
  match a with
  | ⟨0, _⟩ => show win4_2.index t (0 : Fin 2) * 1 + 1 * 0 = (i 0).val; omega
  | ⟨1, _⟩ => show win4_2.index t (1 : Fin 2) * 5 + 1 * q.val = (i 1).val; omega

/-! ## What each point writes back -/

/-- Point t writes back block t of the head of the whole arrays. -/
theorem flushed_eq (c : Dev nD) (t : Fin cfg4.N) :
    (dat4 (F := Ideal) V c).flushed 3 t
      = ((cfg4.win 3).blk t).view.read (Elt Ideal) (Cert.Spec.headRow (V c main_v68) (V c main_arg7) (V c main_v69)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x5) hz, View.ld_unit_zero (S := S1x5) hz]
  obtain ⟨-, -, -, -, -, -, e6, e7⟩ := idx_facts t
  funext j
  obtain ⟨p, q, rfl⟩ : ∃ (p : Fin 5000) (q : Fin 5), j = ix2 p q := ⟨j 0, j 1, eq_ix2 j⟩
  show k4_pay1 (F := Ideal) (iblk4 V c 0 t) (iblk4 V c 1 t) (iblk4 V c 2 t) (ix2 p q)
    = Cert.Spec.headRow (V c main_v68) (V c main_arg7) (V c main_v69) (((cfg4.win 3).blk t).view.emb (ix2 p q))
  have hi0 : ((((cfg4.win 3).blk t).view.emb (ix2 p q)) 0).val = t.val * 5000 + p.val := by
    show win4_3.index t (0 : Fin 2) * 5000 + 1 * p.val = _
    omega
  have hi1 : ((((cfg4.win 3).blk t).view.emb (ix2 p q)) 1).val = q.val := by
    show win4_3.index t (1 : Fin 2) * 5 + 1 * q.val = _
    omega
  refine (payload_apply _ _ _ p q).trans ?_
  unfold Cert.Spec.headRow
  refine congrArg Ideal.logistic (congrArg₂ (· + ·) (Finset.sum_congr rfl fun k _ => congrArg₂ (· * ·) ?_ ?_) ?_)
  · exact rows_apply V c t p k _ hi0 rfl
  · exact weights_apply V c t k q _ rfl hi1
  · exact bias_apply V c t q _ rfl hi1

/-! ## The blocks cover the array -/

/-- An index of the output array is in point t's block iff each coordinate is in the block's range on its axis. -/
theorem mem_blk (t : Fin cfg4.N) (i : S20000x5.Idx) :
    i ∈ ((cfg4.win 3).blk t).view.set ↔ ∀ a : Fin 2, win4_3.index t a * S5000x5.size a ≤ (i a).val ∧ (i a).val < win4_3.index t a * S5000x5.size a + S5000x5.size a := by
  show i ∈ ((View.whole main_v70).slice (win4_3.rect t)).set ↔ _
  rw [View.set_slice_whole, Rect.mem_set_unit]
  exact Iff.rfl

/-- Row r of the output lies in the block of point r / 5000, and every point writes its block back. -/
theorem cover (i : S20000x5.Idx) :
    ∃ t : Fin cfg4.N, (cfg4.win 3).flush t = true ∧ i ∈ ((cfg4.win 3).blk t).view.set := by
  have hi0 : (i 0).val < 20000 := (i 0).isLt
  have hi1 : (i 1).val < 5 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 5 ≤ (i 1).val ∧ (i 1).val < win4_3.index t (1 : Fin 2) * 5 + 5; omega

/-- The output array after all four points is the head of the whole arrays: the logistic function of the selected
    rows times the weights plus the bias row. -/
theorem final (c : Dev nD) :
    (dat4 (F := Ideal) V c).arrAt 3 cfg4.N = Cert.Spec.headRow (V c main_v68) (V c main_arg7) (V c main_v69) :=
  (dat4 (F := Ideal) V c).arrAt_eq_of_cover 3 (Cert.Spec.headRow (V c main_v68) (V c main_arg7) (V c main_v69))
    (fun t _ => flushed_eq V c t) cover

end Cert.KernelIdeal.Region4

end
-- ==== Proof.KChain.lean ====
/-
  The kernel program's buffers, boundary by boundary of @main, at the ideal values: when the first region is
  entered the self-looped edge lists and the edge coefficients are the shared host functions of the edge list;
  each region's output array is its whole-array function of its inputs; each aggregation stretch is the shared
  aggregation of the region's output before it. Read back from the last boundary, the two results are the two
  composite functions of the nine arguments.
-/
import proofs.«159535_j30167850287800_1_alg».proof.Proof.Keep
import proofs.«159535_j30167850287800_1_alg».proof.Proof.Composite
import proofs.«159535_j30167850287800_1_alg».proof.Proof.SpecRow
import proofs.«159535_j30167850287800_1_alg».proof.Proof.Region0
import proofs.«159535_j30167850287800_1_alg».proof.Proof.Region1
import proofs.«159535_j30167850287800_1_alg».proof.Proof.Region2
import proofs.«159535_j30167850287800_1_alg».proof.Proof.Region3
import proofs.«159535_j30167850287800_1_alg».proof.Proof.Region4
import Idealize.ShloMosaic.Lib.StableHlo.Run

set_option maxRecDepth 16384

noncomputable section

namespace Cert.KernelIdeal.Chain

open Cert.KernelIdeal Cert.KernelIdeal.Gen Cert.KernelIdeal.Keep Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the edge lists and the edge coefficients -/

/-- The self-looped source list. -/
theorem W1_src : W1 m ρ c (Proc.devRef .tc main_v5) = srcSl (F := Ideal) (m ((c : Thread nD τ).loc main_arg1)) := by
  show StableHlo.after hostOps0 (W0 m ρ c) (Proc.devRef .tc main_v5) = _
  after_results
  rfl

/-- The self-looped destination list. -/
theorem W1_dst : W1 m ρ c (Proc.devRef .tc main_v6) = dstSl (F := Ideal) (m ((c : Thread nD τ).loc main_arg1)) := by
  show StableHlo.after hostOps0 (W0 m ρ c) (Proc.devRef .tc main_v6) = _
  after_results
  rfl

/-! The operations before the first region, read stage by stage from ANY contents `X` of the buffers (the fold of a
    stretch at one buffer is the stretch's own operations applied to what `X` holds at the buffers it reads). -/
section Stretches

variable (X : Valuation τ sig (Elt Ideal))

/-- Which nodes have a positive degree. -/
theorem st_pos : StableHlo.after hostOps0 X (Proc.devRef .tc main_v12)
    = (cmpf (F := Ideal) .ogt (degree (F := Ideal) (dstSl (F := Ideal) (X (Proc.devRef .tc main_arg1))))
        (broadcastInDim S100000 ![] Facts₀.bcast_S_S100000 (constant (F := Ideal) S_ .f32 0x00000000#32)) : (⟨S100000, .i1⟩ : BufTy).Contents (Elt Ideal)) := by
  unfold hostOps0
  after_results_simp
  rfl

/-- The inverse square root of every degree. -/
theorem st_rsqrt : StableHlo.after hostOps0 X (Proc.devRef .tc main_v13)
    = (Host.rsqrt (F := Ideal) (φ := .f32) (degree (F := Ideal) (dstSl (F := Ideal) (X (Proc.devRef .tc main_arg1)))) : (⟨S100000, .f32⟩ : BufTy).Contents (Elt Ideal)) := by
  unfold hostOps0
  after_results_simp
  rfl

/-- The zero the select falls back to. -/
theorem st_zero : StableHlo.after hostOps0 X (Proc.devRef .tc main_cst_2) = constant (F := Ideal) S_ .f32 0x00000000#32 := by
  unfold hostOps0
  after_results_simp

/-- The outlined select. -/
theorem st_inv : StableHlo.after hostOps0_1 X (Proc.devRef .tc main_v14)
    = (select (X (Proc.devRef .tc main_v12)) (X (Proc.devRef .tc main_v13)) (broadcastInDim S100000 ![] Facts₀.bcast_S_S100000 (id (X (Proc.devRef .tc main_cst_2))))
        : (⟨S100000, .f32⟩ : BufTy).Contents (Elt Ideal)) := by
  simp only [hostOps0_1, after_cons, after_nil]
  rfl

/-- The edge coefficients from the inverse square roots and the two lists. -/
theorem st_norm : StableHlo.after hostOps0_2 X (Proc.devRef .tc main_v29)
    = (mulf (F := Ideal) (φ := .f32)
        (Host.gather (α := Ideal .f32) gather_S100000_S1700000x1_S1700000_n_0_n_n_0_1_1 (X (Proc.devRef .tc main_v14)) (wrapCol (F := Ideal) (X (Proc.devRef .tc main_v5))))
        (Host.gather (α := Ideal .f32) gather_S100000_S1700000x1_S1700000_n_0_n_n_0_1_1 (X (Proc.devRef .tc main_v14)) (wrapCol (F := Ideal) (X (Proc.devRef .tc main_v6))))
        : (⟨S1700000, .f32⟩ : BufTy).Contents (Elt Ideal)) := by
  unfold hostOps0_2
  after_results_simp
  rfl

end Stretches

theorem W1_pos : W1 m ρ c (Proc.devRef .tc main_v12)
    = (cmpf (F := Ideal) .ogt (degree (F := Ideal) (dstSl (F := Ideal) (m ((c : Thread nD τ).loc main_arg1))))
        (broadcastInDim S100000 ![] Facts₀.bcast_S_S100000 (constant (F := Ideal) S_ .f32 0x00000000#32)) : (⟨S100000, .i1⟩ : BufTy).Contents (Elt Ideal)) :=
  st_pos (W0 m ρ c)
theorem W1_rsqrt : W1 m ρ c (Proc.devRef .tc main_v13)
    = (Host.rsqrt (F := Ideal) (φ := .f32) (degree (F := Ideal) (dstSl (F := Ideal) (m ((c : Thread nD τ).loc main_arg1)))) : (⟨S100000, .f32⟩ : BufTy).Contents (Elt Ideal)) :=
  st_rsqrt (W0 m ρ c)
theorem W1_zero : W1 m ρ c (Proc.devRef .tc main_cst_2) = constant (F := Ideal) S_ .f32 0x00000000#32 :=
  st_zero (W0 m ρ c)

/-- The inverse square roots of the degrees, zero where the degree is not positive, once the outlined select has run. -/
theorem W2_inv : W2 m ρ c (Proc.devRef .tc main_v14) = invSqrt (F := Ideal) (degree (F := Ideal) (dstSl (F := Ideal) (m ((c : Thread nD τ).loc main_arg1)))) := by
  refine (st_inv (W1 m ρ c)).trans ?_
  rw [W1_pos, W1_rsqrt, W1_zero]
  rfl

/-- Each edge's coefficient when the first region is entered: the product of the inverse square roots gathered at
    the edge's two endpoints. -/
theorem W3_norm : W3 m ρ c (Proc.devRef .tc main_v29)
    = edgeNorm (F := Ideal) (srcSl (F := Ideal) (m ((c : Thread nD τ).loc main_arg1))) (dstSl (F := Ideal) (m ((c : Thread nD τ).loc main_arg1))) := by
  refine (st_norm (W2 m ρ c)).trans ?_
  rw [W2_inv, W2_of m ρ c main_v5 (by decide), W2_of m ρ c main_v6 (by decide), W1_src, W1_dst]
  rfl

theorem W3_src : W3 m ρ c (Proc.devRef .tc main_v5) = srcSl (F := Ideal) (m ((c : Thread nD τ).loc main_arg1)) :=
  (W3_of m ρ c main_v5 (by decide)).trans ((W2_of m ρ c main_v5 (by decide)).trans (W1_src m ρ c))
theorem W3_dst : W3 m ρ c (Proc.devRef .tc main_v6) = dstSl (F := Ideal) (m ((c : Thread nD τ).loc main_arg1)) :=
  (W3_of m ρ c main_v6 (by decide)).trans ((W2_of m ρ c main_v6 (by decide)).trans (W1_dst m ρ c))

/-! ## Region 0 and the first aggregation -/

/-- The first projection. -/
theorem W4_proj : W4 m ρ c (Proc.devRef .tc main_v30) = Cert.Spec.proj128 (m ((c : Thread nD τ).loc main_arg0)) (m ((c : Thread nD τ).loc main_arg3)) := by
  refine (W4_arr m ρ c 2).trans ((Cert.KernelIdeal.Region0.final (V3 m ρ) c).trans ?_)
  show Cert.Spec.proj128 (W3 m ρ c (Proc.devRef .tc main_arg0)) (W3 m ρ c (Proc.devRef .tc main_arg3)) = _
  rw [W3_launch m ρ c main_arg0 (by decide) (by decide) (by decide), W3_launch m ρ c main_arg3 (by decide) (by decide) (by decide)]

/-- What the first region leaves alone, as it was when the region was entered. -/
theorem W4_keep (r : Ref sig .tc) (h : ∀ w, Pipeline.arrRef spec0 w ≠ r) : W4 m ρ c (Proc.devRef .tc r) = W3 m ρ c (Proc.devRef .tc r) :=
  W4_of_ne m ρ c r h

/-- The first layer's aggregated features. -/
theorem W5_agg : W5 m ρ c (Proc.devRef .tc main_v43) = Cert.Composite.layerAgg (Cert.Spec.proj128 (m ((c : Thread nD τ).loc main_arg0)) (m ((c : Thread nD τ).loc main_arg3))) (m ((c : Thread nD τ).loc main_arg1)) := by
  have e : W5 m ρ c (Proc.devRef .tc main_v43) = aggregate (F := Ideal) (W4 m ρ c (Proc.devRef .tc main_v30)) (W4 m ρ c (Proc.devRef .tc main_v5))
      (W4 m ρ c (Proc.devRef .tc main_v6)) (W4 m ρ c (Proc.devRef .tc main_v29)) := by
    show StableHlo.after hostOps1 (W4 m ρ c) (Proc.devRef .tc main_v43) = _
    after_results
    rfl
  rw [e, W4_proj, W4_keep m ρ c main_v5 (by decide), W4_keep m ρ c main_v6 (by decide), W4_keep m ρ c main_v29 (by decide),
    W3_src, W3_dst, W3_norm]
  rfl

/-- The first bias as a one-row matrix. -/
theorem W5_bias : W5 m ρ c (Proc.devRef .tc main_v44) = shapeCast S1x64 (m ((c : Thread nD τ).loc main_arg4)) Facts₀.shapeCasts_S64_S1x64 := by
  have e : W5 m ρ c (Proc.devRef .tc main_v44) = shapeCast S1x64 (W4 m ρ c (Proc.devRef .tc main_arg4)) Facts₀.shapeCasts_S64_S1x64 := by
    show StableHlo.after hostOps1 (W4 m ρ c) (Proc.devRef .tc main_v44) = _
    after_results
    rfl
  rw [e, W4_keep m ρ c main_arg4 (by decide), W3_launch m ρ c main_arg4 (by decide) (by decide) (by decide)]

/-! ## Regions 1 and 2 and the second aggregation -/

/-- The first layer's hidden features. -/
theorem W6_hidden : W6 m ρ c (Proc.devRef .tc main_v45) = Cert.Composite.hidden1 (m ((c : Thread nD τ).loc main_arg0)) (m ((c : Thread nD τ).loc main_arg1)) (m ((c : Thread nD τ).loc main_arg3)) (m ((c : Thread nD τ).loc main_arg4)) := by
  refine (W6_arr m ρ c 2).trans ((Cert.KernelIdeal.Region1.final (V5 m ρ) c).trans ?_)
  show Cert.Spec.biasActRow (W5 m ρ c (Proc.devRef .tc main_v43)) (W5 m ρ c (Proc.devRef .tc main_v44)) = _
  rw [W5_agg, W5_bias, Cert.Spec.biasActRow_reshape]
  rfl

/-- An argument that nothing up to the second region touches holds its launch contents there. -/
theorem W6_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = m ((c : Thread nD τ).loc r) :=
  (W6_of_ne m ρ c r h5).trans ((W5_of m ρ c r h4).trans ((W4_of_ne m ρ c r h3).trans (W3_launch m ρ c r h0 h1 h2)))

/-- The second projection. -/
theorem W7_proj : W7 m ρ c (Proc.devRef .tc main_v46) = Cert.Spec.proj64 (Cert.Composite.hidden1 (m ((c : Thread nD τ).loc main_arg0)) (m ((c : Thread nD τ).loc main_arg1)) (m ((c : Thread nD τ).loc main_arg3)) (m ((c : Thread nD τ).loc main_arg4))) (m ((c : Thread nD τ).loc main_arg5)) := by
  refine (W7_arr m ρ c 2).trans ((Cert.KernelIdeal.Region2.final (V6 m ρ) c).trans ?_)
  show Cert.Spec.proj64 (W6 m ρ c (Proc.devRef .tc main_v45)) (W6 m ρ c (Proc.devRef .tc main_arg5)) = _
  rw [W6_hidden, W6_launch m ρ c main_arg5 (by decide) (by decide) (by decide) (by decide) (by decide) (by decide)]

/-- What regions 1 and 2 and the first aggregation leave alone, as it was when the first region was left. -/
theorem W7_keep (r : Ref sig .tc) (h4 : r ∉ hostOps1_W) (h5 : ∀ w, Pipeline.arrRef spec1 w ≠ r) (h6 : ∀ w, Pipeline.arrRef spec2 w ≠ r) :
    W7 m ρ c (Proc.devRef .tc r) = W4 m ρ c (Proc.devRef .tc r) :=
  (W7_of_ne m ρ c r h6).trans ((W6_of_ne m ρ c r h5).trans (W5_of m ρ c r h4))

/-- The second layer's aggregated features. -/
theorem W8_agg : W8 m ρ c (Proc.devRef .tc main_v59)
    = Cert.Composite.layerAgg (Cert.Spec.proj64 (Cert.Composite.hidden1 (m ((c : Thread nD τ).loc main_arg0)) (m ((c : Thread nD τ).loc main_arg1)) (m ((c : Thread nD τ).loc main_arg3)) (m ((c : Thread nD τ).loc main_arg4))) (m ((c : Thread nD τ).loc main_arg5))) (m ((c : Thread nD τ).loc main_arg1)) := by
  have e : W8 m ρ c (Proc.devRef .tc main_v59) = aggregate (F := Ideal) (W7 m ρ c (Proc.devRef .tc main_v46)) (W7 m ρ c (Proc.devRef .tc main_v5))
      (W7 m ρ c (Proc.devRef .tc main_v6)) (W7 m ρ c (Proc.devRef .tc main_v29)) := by
    show StableHlo.after hostOps3 (W7 m ρ c) (Proc.devRef .tc main_v59) = _
    after_results
    rfl
  rw [e, W7_proj, W7_keep m ρ c main_v5 (by decide) (by decide) (by decide), W7_keep m ρ c main_v6 (by decide) (by decide) (by decide),
    W7_keep m ρ c main_v29 (by decide) (by decide) (by decide),
    W4_keep m ρ c main_v5 (by decide), W4_keep m ρ c main_v6 (by decide), W4_keep m ρ c main_v29 (by decide), W3_src, W3_dst, W3_norm]
  rfl

/-- The second bias as a one-row matrix. -/
theorem W8_bias : W8 m ρ c (Proc.devRef .tc main_v60) = shapeCast S1x64 (m ((c : Thread nD τ).loc main_arg6)) Facts₀.shapeCasts_S64_S1x64 := by
  have e : W8 m ρ c (Proc.devRef .tc main_v60) = shapeCast S1x64 (W7 m ρ c (Proc.devRef .tc main_arg6)) Facts₀.shapeCasts_S64_S1x64 := by
    show StableHlo.after hostOps3 (W7 m ρ c) (Proc.devRef .tc main_v60) = _
    after_results
    rfl
  rw [e, W7_keep m ρ c main_arg6 (by decide) (by decide) (by decide), W4_keep m ρ c main_arg6 (by decide),
    W3_launch m ρ c main_arg6 (by decide) (by decide) (by decide)]

/-! ## Region 3, the row selection and the head -/

/-- The second layer's hidden features. -/
theorem W9_hidden : W9 m ρ c (Proc.devRef .tc main_v61) = Cert.Composite.hidden2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ((Cert.KernelIdeal.Region3.final (V8 m ρ) c).trans ?_)
  show Cert.Spec.biasActRow (W8 m ρ c (Proc.devRef .tc main_v59)) (W8 m ρ c (Proc.devRef .tc main_v60)) = _
  rw [W8_agg, W8_bias, Cert.Spec.biasActRow_reshape]
  rfl

/-- An argument that nothing up to the row selection touches holds its launch contents there. -/
theorem W9_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : ∀ w, Pipeline.arrRef spec2 w ≠ r) (h7 : r ∉ hostOps3_W) (h8 : ∀ w, Pipeline.arrRef spec3 w ≠ r) :
    W9 m ρ c (Proc.devRef .tc r) = m ((c : Thread nD τ).loc r) :=
  (W9_of_ne m ρ c r h8).trans ((W8_of m ρ c r h7).trans ((W7_of_ne m ρ c r h6).trans (W6_launch m ρ c r h0 h1 h2 h3 h4 h5)))

/-- The selected rows: the first result. -/
theorem W10_sel : W10 m ρ c (Proc.devRef .tc main_v68) = Cert.Composite.selected (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W10 m ρ c (Proc.devRef .tc main_v68) = selectRows (F := Ideal) (W9 m ρ c (Proc.devRef .tc main_v61)) (W9 m ρ c (Proc.devRef .tc main_arg2)) := by
    show StableHlo.after hostOps4 (W9 m ρ c) (Proc.devRef .tc main_v68) = _
    after_results
    rfl
  rw [e, W9_hidden, W9_launch m ρ c main_arg2 (by decide) (by decide) (by decide) (by decide) (by decide) (by decide) (by decide) (by decide) (by decide)]
  rfl

/-- The head's bias as a one-row matrix. -/
theorem W10_bias : W10 m ρ c (Proc.devRef .tc main_v69) = shapeCast S1x5 (m ((c : Thread nD τ).loc main_arg8)) Facts₀.shapeCasts_S5_S1x5 := by
  have e : W10 m ρ c (Proc.devRef .tc main_v69) = shapeCast S1x5 (W9 m ρ c (Proc.devRef .tc main_arg8)) Facts₀.shapeCasts_S5_S1x5 := by
    show StableHlo.after hostOps4 (W9 m ρ c) (Proc.devRef .tc main_v69) = _
    after_results
    rfl
  rw [e, W9_launch m ρ c main_arg8 (by decide) (by decide) (by decide) (by decide) (by decide) (by decide) (by decide) (by decide) (by decide)]

/-- The first result after the run: the head only reads the selected rows. -/
theorem W11_sel : W11 m ρ c (Proc.devRef .tc main_v68) = Cert.Composite.selected (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W11_arr m ρ c 0).trans (((dat4 (V10 m ρ) c).arrAt_in 0 rfl _).trans ((A_eq4 (V10 m ρ) c 0).trans (W10_sel m ρ c)))

/-- The second result after the run: the logistic head of the selected rows. -/
theorem W11_out : W11 m ρ c (Proc.devRef .tc main_v70)
    = Cert.Composite.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((Cert.KernelIdeal.Region4.final (V10 m ρ) c).trans ?_)
  show Cert.Spec.headRow (W10 m ρ c (Proc.devRef .tc main_v68)) (W10 m ρ c (Proc.devRef .tc main_arg7)) (W10 m ρ c (Proc.devRef .tc main_v69)) = _
  rw [W10_sel, W10_bias, W10_of m ρ c main_arg7 (by decide),
    W9_launch m ρ c main_arg7 (by decide) (by decide) (by decide) (by decide) (by decide) (by decide) (by decide) (by decide) (by decide),
    Cert.Spec.headRow_reshape]
  rfl

end Cert.KernelIdeal.Chain

end
-- ==== Proof.RefOps.lean ====
/-
  The reference program's @main as the list of its 117 host operations, in order (each outlined function's
  operations at its call site, over the call's own buffers), and the fact that each touches TensorCore buffers only.
-/
import proofs.«159535_j30167850287800_1_alg».proof.Proof.Gen.ReferenceIdeal
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem

variable {F : FTy → Type} [FloatOps F]

/-- @main's operations, in order. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v5 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v5 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v5 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v5 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select,
    StableHlo.binary main_v47 main_arg5 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v49 (broadcastInDim S1700000 ![] bcast_S_S1700000 : (⟨S_, .i32⟩ : BufTy).Contents (Elt F) → (⟨S1700000, .i32⟩ : BufTy).Contents (Elt F)),
    StableHlo.binary main_v5 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v51 (broadcastInDim S1700000 ![] bcast_S_S1700000 : (⟨S_, .i32⟩ : BufTy).Contents (Elt F) → (⟨S1700000, .i32⟩ : BufTy).Contents (Elt F)),
    StableHlo.binary main_v5 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v59 (broadcastInDim S100000x64 ![] bcast_S_S100000x64 : (⟨S_, .f32⟩ : BufTy).Contents (Elt F) → (⟨S100000x64, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (.of main_v64 : StableHlo.TRef sig ⟨S100000x64, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x64 ![] bcast_S_S100000x64),
    StableHlo.TRef.binary main_call2.v3 (.of main_v64 : StableHlo.TRef sig ⟨S100000x64, .f32⟩) main_call2.v4 mulf,
    StableHlo.TRef.ternary main_call2.v1 (.of main_v64 : StableHlo.TRef sig ⟨S100000x64, .f32⟩) main_call2.v4 main_call2.call0.v0 select,
    StableHlo.nullary main_c_14 (constantI S_ 32 0#32),
    StableHlo.unary main_c_14 main_v66 (broadcastInDim S20000 ![] bcast_S_S20000 : (⟨S_, .i32⟩ : BufTy).Contents (Elt F) → (⟨S20000, .i32⟩ : BufTy).Contents (Elt F)),
    StableHlo.binary main_arg2 main_v66 main_v67 (cmpi .slt : (⟨S20000, .i32⟩ : BufTy).Contents (Elt F) → (⟨S20000, .i32⟩ : BufTy).Contents (Elt F) → (⟨S20000, .i1⟩ : BufTy).Contents (Elt F)),
    StableHlo.nullary main_c_15 (constantI S_ 32 100000#32),
    StableHlo.unary main_c_15 main_v68 (broadcastInDim S20000 ![] bcast_S_S20000 : (⟨S_, .i32⟩ : BufTy).Contents (Elt F) → (⟨S20000, .i32⟩ : BufTy).Contents (Elt F)),
    StableHlo.binary main_arg2 main_v68 main_v69 (addi : (⟨S20000, .i32⟩ : BufTy).Contents (Elt F) → (⟨S20000, .i32⟩ : BufTy).Contents (Elt F) → (⟨S20000, .i32⟩ : BufTy).Contents (Elt F)),
    StableHlo.ternary main_v67 main_v69 main_arg2 main_v70 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v70 main_v71 (broadcastInDim S20000x1 ![0] bcast_S20000_S20000x1_0 : (⟨S20000, .i32⟩ : BufTy).Contents (Elt F) → (⟨S20000x1, .i32⟩ : BufTy).Contents (Elt F)),
    StableHlo.binary main_v65 main_v71 main_v72 ((fun x i => Host.gather gather_S100000x64_S20000x1_S20000x64_1_0_n_n_0_1_164 x i) : (⟨S100000x64, .f32⟩ : BufTy).Contents (Elt F) → (⟨S20000x1, .i32⟩ : BufTy).Contents (Elt F) → (⟨S20000x64, .f32⟩ : BufTy).Contents (Elt F)),
    StableHlo.binary main_v72 main_arg7 main_v73 ((fun l r => Host.dotGeneral dot_S20000x64_S64x5_S20000x5_1_0_0_1_n_n none l r) : (⟨S20000x64, .f32⟩ : BufTy).Contents (Elt F) → (⟨S64x5, .f32⟩ : BufTy).Contents (Elt F) → (⟨S20000x5, .f32⟩ : BufTy).Contents (Elt F)),
    StableHlo.unary main_arg8 main_v74 (broadcastInDim S1x5 ![1] bcast_S5_S1x5_1 : (⟨S5, .f32⟩ : BufTy).Contents (Elt F) → (⟨S1x5, .f32⟩ : BufTy).Contents (Elt F)),
    StableHlo.unary main_v74 main_v75 (broadcastInDim S20000x5 ![0, 1] bcast_S1x5_S20000x5_0_1 : (⟨S1x5, .f32⟩ : BufTy).Contents (Elt F) → (⟨S20000x5, .f32⟩ : BufTy).Contents (Elt F)),
    StableHlo.binary main_v73 main_v75 main_v76 (addf : (⟨S20000x5, .f32⟩ : BufTy).Contents (Elt F) → (⟨S20000x5, .f32⟩ : BufTy).Contents (Elt F) → (⟨S20000x5, .f32⟩ : BufTy).Contents (Elt F)),
    StableHlo.unary main_v76 main_v77 (Host.negf : (⟨S20000x5, .f32⟩ : BufTy).Contents (Elt F) → (⟨S20000x5, .f32⟩ : BufTy).Contents (Elt F)),
    StableHlo.unary main_v77 main_v78 (Host.exp : (⟨S20000x5, .f32⟩ : BufTy).Contents (Elt F) → (⟨S20000x5, .f32⟩ : BufTy).Contents (Elt F)),
    StableHlo.nullary main_cst_16 (constant S_ .f32 0x3F800000#32),
    StableHlo.unary main_cst_16 main_v79 (broadcastInDim S20000x5 ![] bcast_S_S20000x5 : (⟨S_, .f32⟩ : BufTy).Contents (Elt F) → (⟨S20000x5, .f32⟩ : BufTy).Contents (Elt F)),
    StableHlo.binary main_v79 main_v78 main_v80 (addf : (⟨S20000x5, .f32⟩ : BufTy).Contents (Elt F) → (⟨S20000x5, .f32⟩ : BufTy).Contents (Elt F) → (⟨S20000x5, .f32⟩ : BufTy).Contents (Elt F)),
    StableHlo.nullary main_cst_17 (constant S_ .f32 0x3F800000#32),
    StableHlo.unary main_cst_17 main_v81 (broadcastInDim S20000x5 ![] bcast_S_S20000x5 : (⟨S_, .f32⟩ : BufTy).Contents (Elt F) → (⟨S20000x5, .f32⟩ : BufTy).Contents (Elt F)),
    StableHlo.binary main_v81 main_v80 main_v82 (Host.divf : (⟨S20000x5, .f32⟩ : BufTy).Contents (Elt F) → (⟨S20000x5, .f32⟩ : BufTy).Contents (Elt F) → (⟨S20000x5, .f32⟩ : BufTy).Contents (Elt F)) ]

/-- Every operation reads and writes TensorCore buffers only. -/
theorem ops_sub : (ops : List (HloOp τ sig (Elt F))).Forall fun op => op.bufs ⊆ StableHlo.tcRefs τ sig :=
  ⟨StableHlo.unary_bufs_sub ..,
    StableHlo.reshape_bufs_sub ..,
    StableHlo.unary_bufs_sub ..,
    StableHlo.reshape_bufs_sub ..,
    StableHlo.nullary_bufs_sub ..,
    StableHlo.binary_bufs_sub ..,
    StableHlo.binary_bufs_sub ..,
    StableHlo.nullary_bufs_sub ..,
    StableHlo.unary_bufs_sub ..,
    StableHlo.nullary_bufs_sub ..,
    StableHlo.unary_bufs_sub ..,
    StableHlo.unary_bufs_sub ..,
    StableHlo.ternary_bufs_sub ..,
    StableHlo.nullary_bufs_sub ..,
    StableHlo.unary_bufs_sub ..,
    StableHlo.binary_bufs_sub ..,
    StableHlo.unary_bufs_sub ..,
    StableHlo.nullary_bufs_sub ..,
    StableHlo.unary_bufs_sub ..,
    StableHlo.unary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.binary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.unary_bufs_sub ..,
    StableHlo.ternary_bufs_sub ..,
    StableHlo.unary_bufs_sub ..,
    StableHlo.unary_bufs_sub ..,
    StableHlo.binary_bufs_sub ..,
    StableHlo.nullary_bufs_sub ..,
    StableHlo.nullary_bufs_sub ..,
    StableHlo.unary_bufs_sub ..,
    StableHlo.binary_bufs_sub ..,
    StableHlo.unary_bufs_sub ..,
    StableHlo.unary_bufs_sub ..,
    StableHlo.binary_bufs_sub ..,
    StableHlo.ternary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.unary_bufs_sub ..,
    StableHlo.ternary_bufs_sub ..,
    StableHlo.unary_bufs_sub ..,
    StableHlo.unary_bufs_sub ..,
    StableHlo.binary_bufs_sub ..,
    StableHlo.nullary_bufs_sub ..,
    StableHlo.nullary_bufs_sub ..,
    StableHlo.unary_bufs_sub ..,
    StableHlo.binary_bufs_sub ..,
    StableHlo.unary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.binary_bufs_sub ..,
    StableHlo.unary_bufs_sub ..,
    StableHlo.unary_bufs_sub ..,
    StableHlo.binary_bufs_sub ..,
    StableHlo.unary_bufs_sub ..,
    StableHlo.unary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..⟩

/-- Stage 0 of @main: 18 consecutive operations. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- Stage 1 of @main: 3 consecutive operations. -/
abbrev ops1 : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- Stage 2 of @main: 19 consecutive operations. -/
abbrev ops2 : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v5 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v5 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Stage 3 of @main: 21 consecutive operations. -/
abbrev ops3 : List (HloOp τ sig (Elt F)) :=
  [ StableHlo.binary main_arg0 main_arg3 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v5 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v5 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32) ]

/-- Stage 4 of @main: 7 consecutive operations. -/
abbrev ops4 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select ]

/-- Stage 5 of @main: 21 consecutive operations. -/
abbrev ops5 : List (HloOp τ sig (Elt F)) :=
  [ StableHlo.binary main_v47 main_arg5 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v49 (broadcastInDim S1700000 ![] bcast_S_S1700000 : (⟨S_, .i32⟩ : BufTy).Contents (Elt F) → (⟨S1700000, .i32⟩ : BufTy).Contents (Elt F)),
    StableHlo.binary main_v5 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v51 (broadcastInDim S1700000 ![] bcast_S_S1700000 : (⟨S_, .i32⟩ : BufTy).Contents (Elt F) → (⟨S1700000, .i32⟩ : BufTy).Contents (Elt F)),
    StableHlo.binary main_v5 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v59 (broadcastInDim S100000x64 ![] bcast_S_S100000x64 : (⟨S_, .f32⟩ : BufTy).Contents (Elt F) → (⟨S100000x64, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3C23D70A#32) ]

/-- Stage 6 of @main: 7 consecutive operations. -/
abbrev ops6 : List (HloOp τ sig (Elt F)) :=
  [ StableHlo.TRef.nullary main_call2.cst (constant S_ .f32 0x00000000#32),
    StableHlo.TRef.unary main_call2.cst main_call2.v0 (broadcastInDim S100000x64 ![] bcast_S_S100000x64),
    StableHlo.TRef.binary (.of main_v64 : StableHlo.TRef sig ⟨S100000x64, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x64 ![] bcast_S_S100000x64),
    StableHlo.TRef.binary main_call2.v3 (.of main_v64 : StableHlo.TRef sig ⟨S100000x64, .f32⟩) main_call2.v4 mulf,
    StableHlo.TRef.ternary main_call2.v1 (.of main_v64 : StableHlo.TRef sig ⟨S100000x64, .f32⟩) main_call2.v4 main_call2.call0.v0 select ]

/-- Stage 7 of @main: 9 consecutive operations. -/
abbrev ops7 : List (HloOp τ sig (Elt F)) :=
  [ StableHlo.nullary main_c_14 (constantI S_ 32 0#32),
    StableHlo.unary main_c_14 main_v66 (broadcastInDim S20000 ![] bcast_S_S20000 : (⟨S_, .i32⟩ : BufTy).Contents (Elt F) → (⟨S20000, .i32⟩ : BufTy).Contents (Elt F)),
    StableHlo.binary main_arg2 main_v66 main_v67 (cmpi .slt : (⟨S20000, .i32⟩ : BufTy).Contents (Elt F) → (⟨S20000, .i32⟩ : BufTy).Contents (Elt F) → (⟨S20000, .i1⟩ : BufTy).Contents (Elt F)),
    StableHlo.nullary main_c_15 (constantI S_ 32 100000#32),
    StableHlo.unary main_c_15 main_v68 (broadcastInDim S20000 ![] bcast_S_S20000 : (⟨S_, .i32⟩ : BufTy).Contents (Elt F) → (⟨S20000, .i32⟩ : BufTy).Contents (Elt F)),
    StableHlo.binary main_arg2 main_v68 main_v69 (addi : (⟨S20000, .i32⟩ : BufTy).Contents (Elt F) → (⟨S20000, .i32⟩ : BufTy).Contents (Elt F) → (⟨S20000, .i32⟩ : BufTy).Contents (Elt F)),
    StableHlo.ternary main_v67 main_v69 main_arg2 main_v70 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v70 main_v71 (broadcastInDim S20000x1 ![0] bcast_S20000_S20000x1_0 : (⟨S20000, .i32⟩ : BufTy).Contents (Elt F) → (⟨S20000x1, .i32⟩ : BufTy).Contents (Elt F)),
    StableHlo.binary main_v65 main_v71 main_v72 ((fun x i => Host.gather gather_S100000x64_S20000x1_S20000x64_1_0_n_n_0_1_164 x i) : (⟨S100000x64, .f32⟩ : BufTy).Contents (Elt F) → (⟨S20000x1, .i32⟩ : BufTy).Contents (Elt F) → (⟨S20000x64, .f32⟩ : BufTy).Contents (Elt F)) ]

/-- Stage 8 of @main: 12 consecutive operations. -/
abbrev ops8 : List (HloOp τ sig (Elt F)) :=
  [ StableHlo.binary main_v72 main_arg7 main_v73 ((fun l r => Host.dotGeneral dot_S20000x64_S64x5_S20000x5_1_0_0_1_n_n none l r) : (⟨S20000x64, .f32⟩ : BufTy).Contents (Elt F) → (⟨S64x5, .f32⟩ : BufTy).Contents (Elt F) → (⟨S20000x5, .f32⟩ : BufTy).Contents (Elt F)),
    StableHlo.unary main_arg8 main_v74 (broadcastInDim S1x5 ![1] bcast_S5_S1x5_1 : (⟨S5, .f32⟩ : BufTy).Contents (Elt F) → (⟨S1x5, .f32⟩ : BufTy).Contents (Elt F)),
    StableHlo.unary main_v74 main_v75 (broadcastInDim S20000x5 ![0, 1] bcast_S1x5_S20000x5_0_1 : (⟨S1x5, .f32⟩ : BufTy).Contents (Elt F) → (⟨S20000x5, .f32⟩ : BufTy).Contents (Elt F)),
    StableHlo.binary main_v73 main_v75 main_v76 (addf : (⟨S20000x5, .f32⟩ : BufTy).Contents (Elt F) → (⟨S20000x5, .f32⟩ : BufTy).Contents (Elt F) → (⟨S20000x5, .f32⟩ : BufTy).Contents (Elt F)),
    StableHlo.unary main_v76 main_v77 (Host.negf : (⟨S20000x5, .f32⟩ : BufTy).Contents (Elt F) → (⟨S20000x5, .f32⟩ : BufTy).Contents (Elt F)),
    StableHlo.unary main_v77 main_v78 (Host.exp : (⟨S20000x5, .f32⟩ : BufTy).Contents (Elt F) → (⟨S20000x5, .f32⟩ : BufTy).Contents (Elt F)),
    StableHlo.nullary main_cst_16 (constant S_ .f32 0x3F800000#32),
    StableHlo.unary main_cst_16 main_v79 (broadcastInDim S20000x5 ![] bcast_S_S20000x5 : (⟨S_, .f32⟩ : BufTy).Contents (Elt F) → (⟨S20000x5, .f32⟩ : BufTy).Contents (Elt F)),
    StableHlo.binary main_v79 main_v78 main_v80 (addf : (⟨S20000x5, .f32⟩ : BufTy).Contents (Elt F) → (⟨S20000x5, .f32⟩ : BufTy).Contents (Elt F) → (⟨S20000x5, .f32⟩ : BufTy).Contents (Elt F)),
    StableHlo.nullary main_cst_17 (constant S_ .f32 0x3F800000#32),
    StableHlo.unary main_cst_17 main_v81 (broadcastInDim S20000x5 ![] bcast_S_S20000x5 : (⟨S_, .f32⟩ : BufTy).Contents (Elt F) → (⟨S20000x5, .f32⟩ : BufTy).Contents (Elt F)),
    StableHlo.binary main_v81 main_v80 main_v82 (Host.divf : (⟨S20000x5, .f32⟩ : BufTy).Contents (Elt F) → (⟨S20000x5, .f32⟩ : BufTy).Contents (Elt F) → (⟨S20000x5, .f32⟩ : BufTy).Contents (Elt F)) ]

/-- The whole list is its stages, one after the other. -/
theorem ops_split : (ops : List (HloOp τ sig (Elt F))) = ops0 ++ ops1 ++ ops2 ++ ops3 ++ ops4 ++ ops5 ++ ops6 ++ ops7 ++ ops8 := rfl

end Cert.ReferenceIdeal.HandRun

end
-- ==== Proof.RefRun.lean ====
/-
  The reference program runs: @main is the straight line of its host operations (each outlined function unfolded
  at its call), so every weakly fair execution terminates without a fault and leaves each buffer at the fold of
  the operations' results over the launch contents.
-/
import proofs.«159535_j30167850287800_1_alg».proof.Proof.RefOps
import Idealize.ShloMosaic.Lib.Pipeline.Regions

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-- @main is the straight line of the listed operations: its two windows and the three outlined functions unfold,
    statement by statement, to the same chain of steps (a definitional equation, left to the kernel's check). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, nothing faulting, and every
    buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefKeep.lean ====
/-
  The reference's @main cut into its nine stages: the buffer contents after each stage as a fold from the launch
  contents, the list of buffers each stage writes, and the equation "not written at this stage, so as before".
  Every value is written once, so a buffer read later than it was written still holds that value.
-/
import proofs.«159535_j30167850287800_1_alg».proof.Proof.RefOps

set_option maxRecDepth 16384

noncomputable section

namespace Cert.ReferenceIdeal.HandRun

open Cert.ReferenceIdeal Idealize.ShloMosaic Idealize.ShloMosaic.TcCoe Idealize.SL.Sem Idealize.ShloMosaic.StableHlo

variable {F : FTy → Type} [FloatOps F]

/-- Two lines of operations run one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (V : Valuation τ sig (Elt F))

/-- The buffer contents after stage 0 (the edge lists and the degrees). -/
abbrev R1 : Valuation τ sig (Elt F) := after ops0 V
/-- The buffer contents after stage 1 (the outlined select of the inverse square roots). -/
abbrev R2 : Valuation τ sig (Elt F) := after ops1 (R1 V)
/-- The buffer contents after stage 2 (the edge coefficients). -/
abbrev R3 : Valuation τ sig (Elt F) := after ops2 (R2 V)
/-- The buffer contents after stage 3 (the first projection, its aggregation and the bias-add). -/
abbrev R4 : Valuation τ sig (Elt F) := after ops3 (R3 V)
/-- The buffer contents after stage 4 (the reference's leaky rectifier after the first layer). -/
abbrev R5 : Valuation τ sig (Elt F) := after ops4 (R4 V)
/-- The buffer contents after stage 5 (the second projection, its aggregation and the bias-add). -/
abbrev R6 : Valuation τ sig (Elt F) := after ops5 (R5 V)
/-- The buffer contents after stage 6 (the reference's leaky rectifier after the second layer). -/
abbrev R7 : Valuation τ sig (Elt F) := after ops6 (R6 V)
/-- The buffer contents after stage 7 (the row selection). -/
abbrev R8 : Valuation τ sig (Elt F) := after ops7 (R7 V)
/-- The buffer contents after stage 8 (the head). -/
abbrev R9 : Valuation τ sig (Elt F) := after ops8 (R8 V)

/-- The fold of the whole of @main is the last stage's contents. -/
theorem after_ops_eq : after ops V = R9 V := by
  rw [ops_split]
  simp only [after_append]

/-- The buffers stage 0 writes. -/
abbrev ops0_W : List (Ref sig .tc) := [main_v0, main_v1, main_v2, main_v3, main_v4, main_v5, main_v6, main_cst, main_v7, main_cst_0, main_v8, main_v9, main_v10, main_cst_1, main_v11, main_v12, main_v13, main_cst_2]
theorem ops0_writes : (ops0 : List (HloOp τ sig (Elt F))).Forall fun op => op.writes ⊆ ((ops0_W).map (Proc.devRef (τ := τ) .tc)).toFinset := by
  simp only [ops0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R1_of (r : Ref sig .tc) (h : r ∉ ops0_W) : R1 V (Proc.devRef .tc r) = V (Proc.devRef .tc r) :=
  StableHlo.after_of_writes_sub ops0 _ ops0_writes h

/-- The buffers stage 1 writes. -/
abbrev ops1_W : List (Ref sig .tc) := [main_call0_v0, main_call0_v1, main_v14]
theorem ops1_writes : (ops1 : List (HloOp τ sig (Elt F))).Forall fun op => op.writes ⊆ ((ops1_W).map (Proc.devRef (τ := τ) .tc)).toFinset := by
  simp only [ops1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R2_of (r : Ref sig .tc) (h : r ∉ ops1_W) : R2 V (Proc.devRef .tc r) = R1 V (Proc.devRef .tc r) :=
  StableHlo.after_of_writes_sub ops1 _ ops1_writes h

/-- The buffers stage 2 writes. -/
abbrev ops2_W : List (Ref sig .tc) := [main_c, main_v15, main_v16, main_c_3, main_v17, main_v18, main_v19, main_v20, main_v21, main_c_4, main_v22, main_v23, main_c_5, main_v24, main_v25, main_v26, main_v27, main_v28, main_v29]
theorem ops2_writes : (ops2 : List (HloOp τ sig (Elt F))).Forall fun op => op.writes ⊆ ((ops2_W).map (Proc.devRef (τ := τ) .tc)).toFinset := by
  simp only [ops2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R3_of (r : Ref sig .tc) (h : r ∉ ops2_W) : R3 V (Proc.devRef .tc r) = R2 V (Proc.devRef .tc r) :=
  StableHlo.after_of_writes_sub ops2 _ ops2_writes h

/-- The buffers stage 3 writes. -/
abbrev ops3_W : List (Ref sig .tc) := [main_v30, main_c_6, main_v31, main_v32, main_c_7, main_v33, main_v34, main_v35, main_v36, main_v37, main_v38, main_v39, main_v40, main_cst_8, main_v41, main_v42, main_v43, main_v44, main_v45, main_v46, main_cst_9]
theorem ops3_writes : (ops3 : List (HloOp τ sig (Elt F))).Forall fun op => op.writes ⊆ ((ops3_W).map (Proc.devRef (τ := τ) .tc)).toFinset := by
  simp only [ops3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R4_of (r : Ref sig .tc) (h : r ∉ ops3_W) : R4 V (Proc.devRef .tc r) = R3 V (Proc.devRef .tc r) :=
  StableHlo.after_of_writes_sub ops3 _ ops3_writes h

/-- The buffers stage 4 writes. -/
abbrev ops4_W : List (Ref sig .tc) := [main_call1_cst, main_call1_v0, main_call1_v1, main_call1_v2, main_call1_v3, main_call1_v4, main_v47]
theorem ops4_writes : (ops4 : List (HloOp τ sig (Elt F))).Forall fun op => op.writes ⊆ ((ops4_W).map (Proc.devRef (τ := τ) .tc)).toFinset := by
  simp only [ops4, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R5_of (r : Ref sig .tc) (h : r ∉ ops4_W) : R5 V (Proc.devRef .tc r) = R4 V (Proc.devRef .tc r) :=
  StableHlo.after_of_writes_sub ops4 _ ops4_writes h

/-- The buffers stage 5 writes. -/
abbrev ops5_W : List (Ref sig .tc) := [main_v48, main_c_10, main_v49, main_v50, main_c_11, main_v51, main_v52, main_v53, main_v54, main_v55, main_v56, main_v57, main_v58, main_cst_12, main_v59, main_v60, main_v61, main_v62, main_v63, main_v64, main_cst_13]
theorem ops5_writes : (ops5 : List (HloOp τ sig (Elt F))).Forall fun op => op.writes ⊆ ((ops5_W).map (Proc.devRef (τ := τ) .tc)).toFinset := by
  simp only [ops5, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R6_of (r : Ref sig .tc) (h : r ∉ ops5_W) : R6 V (Proc.devRef .tc r) = R5 V (Proc.devRef .tc r) :=
  StableHlo.after_of_writes_sub ops5 _ ops5_writes h

/-- The buffers stage 6 writes. -/
abbrev ops6_W : List (Ref sig .tc) := [main_call2_cst, main_call2_v0, main_call2_v1, main_call2_v2, main_call2_v3, main_call2_v4, main_v65]
theorem ops6_writes : (ops6 : List (HloOp τ sig (Elt F))).Forall fun op => op.writes ⊆ ((ops6_W).map (Proc.devRef (τ := τ) .tc)).toFinset := by
  simp only [ops6, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R7_of (r : Ref sig .tc) (h : r ∉ ops6_W) : R7 V (Proc.devRef .tc r) = R6 V (Proc.devRef .tc r) :=
  StableHlo.after_of_writes_sub ops6 _ ops6_writes h

/-- The buffers stage 7 writes. -/
abbrev ops7_W : List (Ref sig .tc) := [main_c_14, main_v66, main_v67, main_c_15, main_v68, main_v69, main_v70, main_v71, main_v72]
theorem ops7_writes : (ops7 : List (HloOp τ sig (Elt F))).Forall fun op => op.writes ⊆ ((ops7_W).map (Proc.devRef (τ := τ) .tc)).toFinset := by
  simp only [ops7, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R8_of (r : Ref sig .tc) (h : r ∉ ops7_W) : R8 V (Proc.devRef .tc r) = R7 V (Proc.devRef .tc r) :=
  StableHlo.after_of_writes_sub ops7 _ ops7_writes h

/-- The buffers stage 8 writes. -/
abbrev ops8_W : List (Ref sig .tc) := [main_v73, main_v74, main_v75, main_v76, main_v77, main_v78, main_cst_16, main_v79, main_v80, main_cst_17, main_v81, main_v82]
theorem ops8_writes : (ops8 : List (HloOp τ sig (Elt F))).Forall fun op => op.writes ⊆ ((ops8_W).map (Proc.devRef (τ := τ) .tc)).toFinset := by
  simp only [ops8, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem R9_of (r : Ref sig .tc) (h : r ∉ ops8_W) : R9 V (Proc.devRef .tc r) = R8 V (Proc.devRef .tc r) :=
  StableHlo.after_of_writes_sub ops8 _ ops8_writes h

end Cert.ReferenceIdeal.HandRun

end
-- ==== Proof.RefStages.lean ====
/-
  The host operations that the kernel's program and the reference share, as functions of the values they read:
  the edge list with one self-loop per node appended, the symmetric normalization coefficient of each edge
  (the inverse square roots of the in-degrees at its two endpoints, zero where the degree is not positive), the
  aggregation of one layer (gather the source rows, scale each by its edge's coefficient, scatter-add into the
  destination rows) and the selection of the rows the head reads. Negative indices wrap by the array's extent,
  as the programs' indexing does. Nothing here is opened by the proof: both programs apply these same functions.
-/
import proofs.«159535_j30167850287800_1_alg».proof.Proof.Gen.ReferenceIdeal

noncomputable section

namespace Cert.ReferenceIdeal.Stages

open Idealize.ShloMosaic Cert.ReferenceIdeal Cert.ReferenceIdeal.Facts₀

variable {F : FTy → Type} [FloatOps F]

/-- The source endpoint of every edge, then the nodes themselves (the self-loops). -/
def srcSl (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination endpoint of every edge, then the nodes themselves. -/
def dstSl (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A list of node numbers as gather start indices: a negative one wraps by the number of nodes. -/
def wrapCol (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The in-degree of every node, self-loop included: ones scatter-added at the destinations. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- The inverse square root of a positive degree, zero otherwise. -/
def invSqrt (deg : (⟨S100000, .f32⟩ : BufTy).Contents (Elt F)) : (⟨S100000, .f32⟩ : BufTy).Contents (Elt F) :=
  select (cmpf .ogt deg (broadcastInDim S100000 ![] bcast_S_S100000 (constant S_ .f32 0x00000000#32))) (Host.rsqrt deg)
    (broadcastInDim S100000 ![] bcast_S_S100000 (id (constant S_ .f32 0x00000000#32)))

/-- Each edge's coefficient: the product of the inverse square roots at its source and at its destination. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (invSqrt (degree dst)) (wrapCol src))
    (Host.gather gather_S100000_S1700000x1_S1700000_n_0_n_n_0_1_1 (invSqrt (degree dst)) (wrapCol dst))

/-- One layer's aggregation: row n of the result is the sum, over the edges into n, of the projected source row
    times the edge's coefficient. -/
def aggregate (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (wrapCol src))
      (broadcastInDim S1700000x64 ![0, 1] bcast_S1700000x1_S1700000x64_0_1 (broadcastInDim S1700000x1 ![0] bcast_S1700000_S1700000x1_0 nrm)))

/-- The rows of the hidden features that the index list names (a negative index wraps). -/
def selectRows (h : (⟨S100000x64, .f32⟩ : BufTy).Contents (Elt F)) (idx : (⟨S20000, .i32⟩ : BufTy).Contents (Elt F)) :
    (⟨S20000x64, .f32⟩ : BufTy).Contents (Elt F) :=
  Host.gather gather_S100000x64_S20000x1_S20000x64_1_0_n_n_0_1_164 h
    (broadcastInDim S20000x1 ![0] bcast_S20000_S20000x1_0
      (select (cmpi .slt idx (broadcastInDim S20000 ![] bcast_S_S20000 (constantI S_ 32 0#32)))
        (addi idx (broadcastInDim S20000 ![] bcast_S_S20000 (constantI S_ 32 100000#32))) idx))

end Cert.ReferenceIdeal.Stages

end
-- ==== Proof.RefIndex.lean ====
/-
  The reference's own operations, read at the ideal values, are the whole-array functions of the specification:
  its two dense projections (one host dot_general each) are the sums over the contracted channel, its bias-add
  followed by the reference's leaky rectifier (compare with zero, multiply by the slope, select) is leaky (a + b) entry by entry,
  and its head (dot_general, bias, then 1 / (1 + exp (-y))) is the logistic function of the same sum.
-/
import proofs.«159535_j30167850287800_1_alg».proof.Proof.Gen.ReferenceIdeal
import proofs.«159535_j30167850287800_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Index

open Cert.ReferenceIdeal Cert.ReferenceIdeal.Facts₀ Idealize.ShloMosaic Idealize.ShloMosaic.ValueIdx

/-! ## A plain matrix product read at an entry

All three products of the reference have the same dimension numbers: an [M, K] matrix times a [K, N] matrix,
contracting the left operand's axis 1 with the right operand's axis 0, no batch axis. At entry (p, q) the left
operand is read at (p, k) and the right one at (k, q), k the one coordinate of the contraction index; the sum
over the contraction index is then the sum over k in Fin K. -/

section Plain
variable {M K N : ℕ} (wf : DotDims.WF ⟨2, ![M, K]⟩ ⟨2, ![K, N]⟩ ⟨2, ![M, N]⟩ [1] [0] [0] [1] [] [])

/-- The dimension numbers of a plain product: rows by the contracted axis, times the contracted axis by columns. -/
abbrev plainDims : DotDims ⟨2, ![M, K]⟩ ⟨2, ![K, N]⟩ ⟨2, ![M, N]⟩ := ⟨[1], [0], [0], [1], [], [], wf⟩

/-- The left operand's row is the entry's row. -/
theorem plain_lhs_0 (j : (⟨2, ![M, N]⟩ : Shape).Idx) (k : (plainDims wf).contr.Idx) :
    ((plainDims wf).lhsIdx j k 0 : ℕ) = j 0 := by
  simp [DotDims.lhsIdx, plainDims]; rfl

/-- The left operand's column is the contraction coordinate. -/
theorem plain_lhs_1 (j : (⟨2, ![M, N]⟩ : Shape).Idx) (k : (plainDims wf).contr.Idx) :
    ((plainDims wf).lhsIdx j k 1 : ℕ) = k ⟨0, Nat.one_pos⟩ :=
  (plainDims wf).lhsIdx_val_of_single rfl j k

/-- The right operand's row is the contraction coordinate. -/
theorem plain_rhs_0 (j : (⟨2, ![M, N]⟩ : Shape).Idx) (k : (plainDims wf).contr.Idx) :
    ((plainDims wf).rhsIdx j k 0 : ℕ) = k ⟨0, Nat.one_pos⟩ :=
  (plainDims wf).rhsIdx_val_of_single rfl j k

/-- The right operand's column is the entry's column. -/
theorem plain_rhs_1 (j : (⟨2, ![M, N]⟩ : Shape).Idx) (k : (plainDims wf).contr.Idx) :
    ((plainDims wf).rhsIdx j k 1 : ℕ) = j 1 := by
  simp [DotDims.rhsIdx, plainDims]; rfl

/-- The host's plain product at entry (p, q) is the sum over k of x[p, k] · w[k, q]. -/
theorem plain_dot_apply (x : FVec Ideal ⟨2, ![M, K]⟩ .f32) (w : FVec Ideal ⟨2, ![K, N]⟩ .f32) (p : Fin M) (q : Fin N) :
    Host.dotGeneral (plainDims wf) none x w (ix2 p q) = ∑ k : Fin K, x (ix2 p k) * w (ix2 k q) := by
  simp only [Host.dotGeneral]
  refine (Ideal.dotGeneral_apply _ _ _ x w (ix2 p q)).trans ?_
  rw [← Equiv.sum_comp (contrEquiv1 (plainDims wf) K rfl rfl).symm]
  refine Finset.sum_congr rfl fun c _ => ?_
  congr 1
  · refine congrArg x (funext fun a => Fin.ext ?_)
    match a with
    | ⟨0, _⟩ => exact plain_lhs_0 wf _ _
    | ⟨1, _⟩ => exact (plain_lhs_1 wf _ _).trans (contrEquiv1_symm_val _ K rfl rfl c)
  · refine congrArg w (funext fun a => Fin.ext ?_)
    match a with
    | ⟨0, _⟩ => exact (plain_rhs_0 wf _ _).trans (contrEquiv1_symm_val _ K rfl rfl c)
    | ⟨1, _⟩ => exact plain_rhs_1 wf _ _

end Plain

/-! ## A bias vector laid along every row -/

section Rows
variable {α : Type} {m n : ℕ}

/-- A vector of n entries broadcast to one row along axis 1, and that row broadcast down m rows, reads at (p, q)
    the vector at q. -/
theorem bias_rows_apply (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (p : Fin m) (q : Fin n) :
    broadcastInDim ⟨2, ![m, n]⟩ ![0, 1] h2 (broadcastInDim ⟨2, ![1, n]⟩ ![1] h1 b) (ix2 p q) = b (ix1 q) := by
  have hq : q.val = if n = 1 then 0 else q.val := by
    split
    · have := q.isLt; omega
    · rfl
  refine (broadcastInDim_apply ![0, 1] h2 _ (ix2 p q) (ix2 (0 : Fin 1) q) fun a => ?_).trans ?_
  · match a with
    | ⟨0, _⟩ => exact (if_pos rfl).symm
    | ⟨1, _⟩ => exact hq
  · refine broadcastInDim_apply ![1] h1 b (ix2 (0 : Fin 1) q) (ix1 q) fun a => ?_
    match a with
    | ⟨0, _⟩ => exact hq

end Rows

/-! ## The four operations -/

/-- The first projection on the host is the sum over the 128 input channels. -/
theorem dot0_eq (x : FVec Ideal S100000x128 .f32) (w : FVec Ideal S128x64 .f32) :
    Host.dotGeneral dot_S100000x128_S128x64_S100000x64_1_0_0_1_n_n none x w = Cert.Spec.proj128 x w := by
  funext i
  obtain ⟨p, q, rfl⟩ : ∃ (p : Fin 100000) (q : Fin 64), i = ix2 p q := ⟨i 0, i 1, eq_ix2 i⟩
  exact plain_dot_apply dot_S100000x128_S128x64_S100000x64_1_0_0_1_n_n_wf x w p q

/-- The second projection on the host is the sum over the 64 hidden channels. -/
theorem dot1_eq (h : FVec Ideal S100000x64 .f32) (w : FVec Ideal S64x64 .f32) :
    Host.dotGeneral dot_S100000x64_S64x64_S100000x64_1_0_0_1_n_n none h w = Cert.Spec.proj64 h w := by
  funext i
  obtain ⟨p, q, rfl⟩ : ∃ (p : Fin 100000) (q : Fin 64), i = ix2 p q := ⟨i 0, i 1, eq_ix2 i⟩
  exact plain_dot_apply dot_S100000x64_S64x64_S100000x64_1_0_0_1_n_n_wf h w p q

/-- The bias-add and the reference's leaky rectifier on the host: entry by entry leaky (a + b). -/
theorem act_eq (a : FVec Ideal S100000x64 .f32) (b : FVec Ideal S64 .f32) :
    select (cmpf .oge (addf a (broadcastInDim S100000x64 ![0, 1] bcast_S1x64_S100000x64_0_1 (broadcastInDim S1x64 ![1] bcast_S64_S1x64_1 b)))
        (broadcastInDim S100000x64 ![] bcast_S_S100000x64 (constant S_ .f32 0x00000000#32)))
      (addf a (broadcastInDim S100000x64 ![0, 1] bcast_S1x64_S100000x64_0_1 (broadcastInDim S1x64 ![1] bcast_S64_S1x64_1 b)))
      (mulf (broadcastInDim S100000x64 ![] bcast_S_S100000x64 (id (constant S_ .f32 0x3C23D70A#32)))
        (addf a (broadcastInDim S100000x64 ![0, 1] bcast_S1x64_S100000x64_0_1 (broadcastInDim S1x64 ![1] bcast_S64_S1x64_1 b))))
      = Cert.Spec.biasAct a b := by
  funext i
  obtain ⟨p, q, rfl⟩ : ∃ (p : Fin 100000) (q : Fin 64), i = ix2 p q := ⟨i 0, i 1, eq_ix2 i⟩
  -- the pointwise operations and the two broadcast scalars read through by definition; what is left is the bias at (p, q)
  exact congrArg Cert.Spec.leaky (congrArg (a (ix2 p q) + ·)
    (bias_rows_apply bcast_S64_S1x64_1 bcast_S1x64_S100000x64_0_1 b p q))

/-- The head on the host: 1 / (1 + exp (-(h · w + b))) is the logistic function of the sum, entry by entry. -/
theorem head_eq (h : FVec Ideal S20000x64 .f32) (w : FVec Ideal S64x5 .f32) (b : FVec Ideal S5 .f32) :
    Host.divf (broadcastInDim S20000x5 ![] bcast_S_S20000x5 (constant S_ .f32 0x3F800000#32))
      (addf (broadcastInDim S20000x5 ![] bcast_S_S20000x5 (constant S_ .f32 0x3F800000#32))
        (Host.exp (Host.negf (addf (Host.dotGeneral dot_S20000x64_S64x5_S20000x5_1_0_0_1_n_n none h w)
          (broadcastInDim S20000x5 ![0, 1] bcast_S1x5_S20000x5_0_1 (broadcastInDim S1x5 ![1] bcast_S5_S1x5_1 b))))))
      = Cert.Spec.head h w b := by
  funext i
  obtain ⟨p, q, rfl⟩ : ∃ (p : Fin 20000) (q : Fin 5), i = ix2 p q := ⟨i 0, i 1, eq_ix2 i⟩
  have hd : Host.dotGeneral dot_S20000x64_S64x5_S20000x5_1_0_0_1_n_n none h w (ix2 p q)
      = ∑ k : Fin 64, h (ix2 p k) * w (ix2 k q) :=
    plain_dot_apply dot_S20000x64_S64x5_S20000x5_1_0_0_1_n_n_wf h w p q
  have hb := bias_rows_apply bcast_S5_S1x5_1 bcast_S1x5_S20000x5_0_1 b p q
  -- the pointwise operations and the broadcast constant read through by definition
  show Ideal.div (Ideal.ofBits .f32 0x3F800000#32) (Ideal.ofBits .f32 0x3F800000#32
      + Ideal.exp (-(Host.dotGeneral dot_S20000x64_S64x5_S20000x5_1_0_0_1_n_n none h w (ix2 p q)
        + broadcastInDim S20000x5 ![0, 1] bcast_S1x5_S20000x5_0_1 (broadcastInDim S1x5 ![1] bcast_S5_S1x5_1 b) (ix2 p q))))
    = Ideal.logistic ((∑ k : Fin 64, h (ix2 p k) * w (ix2 k q)) + b (ix1 q))
  rw [hd, hb, Ideal.ofBits_one_f32]
  rfl

end Cert.ReferenceIdeal.Index

end
-- ==== Proof.RefValue.lean ====
/-
  The reference's two results as functions of its arguments. First in the reference's own operations: the host
  functions it shares with the kernel's program around its dense projections, its bias-add with the reference's leaky rectifier
  and its head; the fold of @main's operations at a result buffer is that term, read stage by stage of the nine the list is cut into. Then each of those three kinds of
  operation is the specification's whole-array function, and the shared host functions are the same functions in
  the two programs' spellings: so the results are the composite functions of the arguments.
-/
import proofs.«159535_j30167850287800_1_alg».proof.Proof.RefRun
import proofs.«159535_j30167850287800_1_alg».proof.Proof.RefKeep
import proofs.«159535_j30167850287800_1_alg».proof.Proof.RefStages
import proofs.«159535_j30167850287800_1_alg».proof.Proof.RefIndex
import proofs.«159535_j30167850287800_1_alg».proof.Proof.Composite

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

/-! ## The reference's operations, stage by stage -/

/-- The bias-add followed by the reference's leaky rectifier, as the reference spells it. -/
def refAct (a : FVec Ideal S100000x64 .f32) (b : FVec Ideal S64 .f32) : FVec Ideal S100000x64 .f32 :=
  select (cmpf .oge (addf a (broadcastInDim S100000x64 ![0, 1] bcast_S1x64_S100000x64_0_1 (broadcastInDim S1x64 ![1] bcast_S64_S1x64_1 b)))
      (broadcastInDim S100000x64 ![] bcast_S_S100000x64 (constant S_ .f32 0x00000000#32)))
    (addf a (broadcastInDim S100000x64 ![0, 1] bcast_S1x64_S100000x64_0_1 (broadcastInDim S1x64 ![1] bcast_S64_S1x64_1 b)))
    (mulf (broadcastInDim S100000x64 ![] bcast_S_S100000x64 (id (constant S_ .f32 0x3C23D70A#32)))
      (addf a (broadcastInDim S100000x64 ![0, 1] bcast_S1x64_S100000x64_0_1 (broadcastInDim S1x64 ![1] bcast_S64_S1x64_1 b))))

/-- One layer's aggregation over the graph of the edge list, in the reference's spelling. -/
def refAgg (h : FVec Ideal S100000x64 .f32) (ei : (⟨S2x1600000, .i32⟩ : BufTy).Contents (Elt Ideal)) : FVec Ideal S100000x64 .f32 :=
  Stages.aggregate (F := Ideal) h (Stages.srcSl (F := Ideal) ei) (Stages.dstSl (F := Ideal) ei)
    (Stages.edgeNorm (F := Ideal) (Stages.srcSl (F := Ideal) ei) (Stages.dstSl (F := Ideal) ei))

def refHidden1 (x : FVec Ideal S100000x128 .f32) (ei : (⟨S2x1600000, .i32⟩ : BufTy).Contents (Elt Ideal))
    (W0 : FVec Ideal S128x64 .f32) (b0 : FVec Ideal S64 .f32) : FVec Ideal S100000x64 .f32 :=
  refAct (refAgg (Host.dotGeneral dot_S100000x128_S128x64_S100000x64_1_0_0_1_n_n none x W0) ei) b0

def refHidden2 (x : FVec Ideal S100000x128 .f32) (ei : (⟨S2x1600000, .i32⟩ : BufTy).Contents (Elt Ideal))
    (W0 : FVec Ideal S128x64 .f32) (b0 : FVec Ideal S64 .f32) (W1 : FVec Ideal S64x64 .f32) (b1 : FVec Ideal S64 .f32) :
    FVec Ideal S100000x64 .f32 :=
  refAct (refAgg (Host.dotGeneral dot_S100000x64_S64x64_S100000x64_1_0_0_1_n_n none (refHidden1 x ei W0 b0) W1) ei) b1

def refSelected (x : FVec Ideal S100000x128 .f32) (ei : (⟨S2x1600000, .i32⟩ : BufTy).Contents (Elt Ideal))
    (idx : (⟨S20000, .i32⟩ : BufTy).Contents (Elt Ideal))
    (W0 : FVec Ideal S128x64 .f32) (b0 : FVec Ideal S64 .f32) (W1 : FVec Ideal S64x64 .f32) (b1 : FVec Ideal S64 .f32) :
    FVec Ideal S20000x64 .f32 :=
  Stages.selectRows (F := Ideal) (refHidden2 x ei W0 b0 W1 b1) idx

def refHead (h : FVec Ideal S20000x64 .f32) (w : FVec Ideal S64x5 .f32) (b : FVec Ideal S5 .f32) : FVec Ideal S20000x5 .f32 :=
  Host.divf (broadcastInDim S20000x5 ![] bcast_S_S20000x5 (constant S_ .f32 0x3F800000#32))
    (addf (broadcastInDim S20000x5 ![] bcast_S_S20000x5 (constant S_ .f32 0x3F800000#32))
      (Host.exp (Host.negf (addf (Host.dotGeneral dot_S20000x64_S64x5_S20000x5_1_0_0_1_n_n none h w)
        (broadcastInDim S20000x5 ![0, 1] bcast_S1x5_S20000x5_0_1 (broadcastInDim S1x5 ![1] bcast_S5_S1x5_1 b))))))

/-! ## Two helper spellings: the bias-add and the leaky rectifier, apart -/

/-- The bias row added to every row, as the reference spells it. -/
def refBias (a : FVec Ideal S100000x64 .f32) (b : FVec Ideal S64 .f32) : FVec Ideal S100000x64 .f32 :=
  addf a (broadcastInDim S100000x64 ![0, 1] bcast_S1x64_S100000x64_0_1 (broadcastInDim S1x64 ![1] bcast_S64_S1x64_1 b))

/-- The outlined leaky rectifier on a whole array, the slope given as a scalar: compare with zero, multiply by the
    slope, select. -/
def refLeaky (y : FVec Ideal S100000x64 .f32) (slope : FVec Ideal S_ .f32) : FVec Ideal S100000x64 .f32 :=
  select (cmpf .oge y (broadcastInDim S100000x64 ![] bcast_S_S100000x64 (constant S_ .f32 0x00000000#32)))
    y (mulf (broadcastInDim S100000x64 ![] bcast_S_S100000x64 (id slope)) y)

/-- The reference's activation is that rectifier, at the slope's literal, of its bias-add. -/
theorem refAct_split (a : FVec Ideal S100000x64 .f32) (b : FVec Ideal S64 .f32) :
    refAct a b = refLeaky (refBias a b) (constant S_ .f32 0x3C23D70A#32) := rfl

/-! ## Each stage from any contents W: what it leaves at the buffers later stages read -/

/-- Stage 0: the self-looped source list. -/
theorem st0_src (W : Valuation τ sig (Elt Ideal)) :
    after ops0 W (Proc.devRef .tc main_v5) = Stages.srcSl (F := Ideal) (W (Proc.devRef .tc main_arg1)) := by
  unfold ops0
  after_results_simp
  rfl

/-- Stage 0: the self-looped destination list. -/
theorem st0_dst (W : Valuation τ sig (Elt Ideal)) :
    after ops0 W (Proc.devRef .tc main_v6) = Stages.dstSl (F := Ideal) (W (Proc.devRef .tc main_arg1)) := by
  unfold ops0
  after_results_simp
  rfl

/-- Stage 0: where the degree is positive. -/
theorem st0_pos (W : Valuation τ sig (Elt Ideal)) :
    after ops0 W (Proc.devRef .tc main_v12)
      = (cmpf (F := Ideal) .ogt (Stages.degree (F := Ideal) (Stages.dstSl (F := Ideal) (W (Proc.devRef .tc main_arg1)))) (broadcastInDim S100000 ![] bcast_S_S100000 (constant (F := Ideal) S_ .f32 0x00000000#32)) : (⟨S100000, .i1⟩ : BufTy).Contents (Elt Ideal)) := by
  unfold ops0
  after_results_simp
  rfl

/-- Stage 0: the inverse square roots of the degrees, wherever defined. -/
theorem st0_rsqrt (W : Valuation τ sig (Elt Ideal)) :
    after ops0 W (Proc.devRef .tc main_v13)
      = (Host.rsqrt (F := Ideal) (φ := .f32) (Stages.degree (F := Ideal) (Stages.dstSl (F := Ideal) (W (Proc.devRef .tc main_arg1)))) : (⟨S100000, .f32⟩ : BufTy).Contents (Elt Ideal)) := by
  unfold ops0
  after_results_simp
  rfl

/-- Stage 0 also writes the zero the select falls back to. -/
theorem st0_zero (W : Valuation τ sig (Elt Ideal)) :
    after ops0 W (Proc.devRef .tc main_cst_2) = (constant (F := Ideal) S_ .f32 0x00000000#32) := by
  unfold ops0
  after_results_simp

/-- Stage 1: the outlined select of the inverse square roots, zero elsewhere. -/
theorem st1_sel (W : Valuation τ sig (Elt Ideal)) :
    after ops1 W (Proc.devRef .tc main_v14)
      = (select (W (Proc.devRef .tc main_v12) : (⟨S100000, .i1⟩ : BufTy).Contents (Elt Ideal)) (W (Proc.devRef .tc main_v13) : (⟨S100000, .f32⟩ : BufTy).Contents (Elt Ideal))
          (broadcastInDim S100000 ![] bcast_S_S100000 (id (W (Proc.devRef .tc main_cst_2) : (⟨S_, .f32⟩ : BufTy).Contents (Elt Ideal))))
            : (⟨S100000, .f32⟩ : BufTy).Contents (Elt Ideal)) := by
  simp only [ops1, after_cons, after_nil]
  rfl

/-- Stage 2: the product of the inverse square roots gathered at each edge's two endpoints. -/
theorem st2_norm (W : Valuation τ sig (Elt Ideal)) :
    after ops2 W (Proc.devRef .tc main_v29)
      = (mulf (F := Ideal)
          (Host.gather gather_S100000_S1700000x1_S1700000_n_0_n_n_0_1_1 (W (Proc.devRef .tc main_v14)) (Stages.wrapCol (F := Ideal) (W (Proc.devRef .tc main_v5))))
          (Host.gather gather_S100000_S1700000x1_S1700000_n_0_n_n_0_1_1 (W (Proc.devRef .tc main_v14)) (Stages.wrapCol (F := Ideal) (W (Proc.devRef .tc main_v6))))
            : FVec Ideal S1700000 .f32) := by
  unfold ops2
  after_results_simp
  rfl

/-- Stage 3: the first projection, aggregated, plus the first bias. -/
theorem st3_pre (W : Valuation τ sig (Elt Ideal)) :
    after ops3 W (Proc.devRef .tc main_v46)
      = refBias (Stages.aggregate (F := Ideal) (Host.dotGeneral (F := Ideal) (φ₁ := .f32) (φ₂ := .f32) dot_S100000x128_S128x64_S100000x64_1_0_0_1_n_n none (W (Proc.devRef .tc main_arg0) : FVec Ideal S100000x128 .f32) (W (Proc.devRef .tc main_arg3) : FVec Ideal S128x64 .f32))
          (W (Proc.devRef .tc main_v5)) (W (Proc.devRef .tc main_v6)) (W (Proc.devRef .tc main_v29))) (W (Proc.devRef .tc main_arg4)) := by
  unfold ops3
  after_results_simp
  rfl

/-- Stage 3 also writes the slope's scalar. -/
theorem st3_slope (W : Valuation τ sig (Elt Ideal)) :
    after ops3 W (Proc.devRef .tc main_cst_9) = (constant (F := Ideal) S_ .f32 0x3C23D70A#32) := by
  unfold ops3
  after_results_simp

/-- Stage 4: the leaky rectifier of the first layer. -/
theorem st4_act (W : Valuation τ sig (Elt Ideal)) :
    after ops4 W (Proc.devRef .tc main_v47) = refLeaky (W (Proc.devRef .tc main_v46)) (W (Proc.devRef .tc main_cst_9)) := by
  simp only [ops4, after_cons, after_nil]
  rfl

/-- Stage 5: the second projection, aggregated, plus the second bias. -/
theorem st5_pre (W : Valuation τ sig (Elt Ideal)) :
    after ops5 W (Proc.devRef .tc main_v64)
      = refBias (Stages.aggregate (F := Ideal) (Host.dotGeneral (F := Ideal) (φ₁ := .f32) (φ₂ := .f32) dot_S100000x64_S64x64_S100000x64_1_0_0_1_n_n none (W (Proc.devRef .tc main_v47) : FVec Ideal S100000x64 .f32) (W (Proc.devRef .tc main_arg5) : FVec Ideal S64x64 .f32))
          (W (Proc.devRef .tc main_v5)) (W (Proc.devRef .tc main_v6)) (W (Proc.devRef .tc main_v29))) (W (Proc.devRef .tc main_arg6)) := by
  unfold ops5
  after_results_simp
  rfl

/-- Stage 5 also writes the slope's scalar. -/
theorem st5_slope (W : Valuation τ sig (Elt Ideal)) :
    after ops5 W (Proc.devRef .tc main_cst_13) = (constant (F := Ideal) S_ .f32 0x3C23D70A#32) := by
  unfold ops5
  after_results_simp

/-- Stage 6: the leaky rectifier of the second layer. -/
theorem st6_act (W : Valuation τ sig (Elt Ideal)) :
    after ops6 W (Proc.devRef .tc main_v65) = refLeaky (W (Proc.devRef .tc main_v64)) (W (Proc.devRef .tc main_cst_13)) := by
  simp only [ops6, after_cons, after_nil]
  rfl

/-- Stage 7: the listed rows of the second layer's features. -/
theorem st7_sel (W : Valuation τ sig (Elt Ideal)) :
    after ops7 W (Proc.devRef .tc main_v72) = Stages.selectRows (F := Ideal) (W (Proc.devRef .tc main_v65)) (W (Proc.devRef .tc main_arg2)) := by
  unfold ops7
  after_results_simp
  rfl

/-- Stage 8: the head on the selected rows. -/
theorem st8_head (W : Valuation τ sig (Elt Ideal)) :
    after ops8 W (Proc.devRef .tc main_v82) = refHead (W (Proc.devRef .tc main_v72)) (W (Proc.devRef .tc main_arg7)) (W (Proc.devRef .tc main_arg8)) := by
  unfold ops8
  after_results_simp
  rfl

/-! ## The contents at each stage boundary, from the launch contents V -/

section Chain
variable (V : Valuation τ sig (Elt Ideal))

/-! ### The edge lists and the edge coefficients -/

theorem R1_src : R1 V (Proc.devRef .tc main_v5) = Stages.srcSl (F := Ideal) (V (Proc.devRef .tc main_arg1)) := st0_src V
theorem R1_dst : R1 V (Proc.devRef .tc main_v6) = Stages.dstSl (F := Ideal) (V (Proc.devRef .tc main_arg1)) := st0_dst V

theorem R1_pos : R1 V (Proc.devRef .tc main_v12)
    = (cmpf (F := Ideal) .ogt (Stages.degree (F := Ideal) (Stages.dstSl (F := Ideal) (V (Proc.devRef .tc main_arg1)))) (broadcastInDim S100000 ![] bcast_S_S100000 (constant (F := Ideal) S_ .f32 0x00000000#32)) : (⟨S100000, .i1⟩ : BufTy).Contents (Elt Ideal)) := st0_pos V
theorem R1_rsqrt : R1 V (Proc.devRef .tc main_v13)
    = (Host.rsqrt (F := Ideal) (φ := .f32) (Stages.degree (F := Ideal) (Stages.dstSl (F := Ideal) (V (Proc.devRef .tc main_arg1)))) : (⟨S100000, .f32⟩ : BufTy).Contents (Elt Ideal)) := st0_rsqrt V
theorem R1_zero : R1 V (Proc.devRef .tc main_cst_2) = (constant (F := Ideal) S_ .f32 0x00000000#32) := st0_zero V

/-- The inverse square roots of the degrees once the outlined select has run. -/
theorem R2_inv : R2 V (Proc.devRef .tc main_v14)
    = Stages.invSqrt (F := Ideal) (Stages.degree (F := Ideal) (Stages.dstSl (F := Ideal) (V (Proc.devRef .tc main_arg1)))) := by
  refine (st1_sel (R1 V)).trans ?_
  rw [R1_pos, R1_rsqrt, R1_zero]
  rfl
theorem R2_src : R2 V (Proc.devRef .tc main_v5) = Stages.srcSl (F := Ideal) (V (Proc.devRef .tc main_arg1)) :=
  (R2_of V main_v5 (by decide)).trans (R1_src V)
theorem R2_dst : R2 V (Proc.devRef .tc main_v6) = Stages.dstSl (F := Ideal) (V (Proc.devRef .tc main_arg1)) :=
  (R2_of V main_v6 (by decide)).trans (R1_dst V)

/-- Each edge's coefficient. -/
theorem R3_norm : R3 V (Proc.devRef .tc main_v29)
    = Stages.edgeNorm (F := Ideal) (Stages.srcSl (F := Ideal) (V (Proc.devRef .tc main_arg1))) (Stages.dstSl (F := Ideal) (V (Proc.devRef .tc main_arg1))) := by
  refine (st2_norm (R2 V)).trans ?_
  rw [R2_inv, R2_src, R2_dst]
  rfl
theorem R3_src : R3 V (Proc.devRef .tc main_v5) = Stages.srcSl (F := Ideal) (V (Proc.devRef .tc main_arg1)) :=
  (R3_of V main_v5 (by decide)).trans (R2_src V)
theorem R3_dst : R3 V (Proc.devRef .tc main_v6) = Stages.dstSl (F := Ideal) (V (Proc.devRef .tc main_arg1)) :=
  (R3_of V main_v6 (by decide)).trans (R2_dst V)

/-- A buffer the first three stages do not write holds its launch contents at the third boundary. -/
theorem R3_launch (r : Ref sig .tc) (h0 : r ∉ ops0_W) (h1 : r ∉ ops1_W) (h2 : r ∉ ops2_W) :
    R3 V (Proc.devRef .tc r) = V (Proc.devRef .tc r) :=
  (R3_of V r h2).trans ((R2_of V r h1).trans (R1_of V r h0))

/-! ### The first layer -/

theorem R4_pre : R4 V (Proc.devRef .tc main_v46)
    = refBias (refAgg (Host.dotGeneral (F := Ideal) (φ₁ := .f32) (φ₂ := .f32) dot_S100000x128_S128x64_S100000x64_1_0_0_1_n_n none (V (Proc.devRef .tc main_arg0) : FVec Ideal S100000x128 .f32) (V (Proc.devRef .tc main_arg3) : FVec Ideal S128x64 .f32)) (V (Proc.devRef .tc main_arg1))) (V (Proc.devRef .tc main_arg4)) := by
  refine (st3_pre (R3 V)).trans ?_
  rw [R3_src, R3_dst, R3_norm, R3_launch V main_arg0 (by decide) (by decide) (by decide), R3_launch V main_arg3 (by decide) (by decide) (by decide), R3_launch V main_arg4 (by decide) (by decide) (by decide)]
  rfl
theorem R4_slope : R4 V (Proc.devRef .tc main_cst_9) = (constant (F := Ideal) S_ .f32 0x3C23D70A#32) := st3_slope (R3 V)

/-- The first layer's hidden features. -/
theorem R5_hidden : R5 V (Proc.devRef .tc main_v47) = refHidden1 (V (Proc.devRef .tc main_arg0)) (V (Proc.devRef .tc main_arg1)) (V (Proc.devRef .tc main_arg3)) (V (Proc.devRef .tc main_arg4)) := by
  refine (st4_act (R4 V)).trans ?_
  rw [R4_pre, R4_slope]
  rfl

/-- A buffer stages 3 and 4 do not write holds at the fifth boundary what it held at the third. -/
theorem R5_keep (r : Ref sig .tc) (h3 : r ∉ ops3_W) (h4 : r ∉ ops4_W) : R5 V (Proc.devRef .tc r) = R3 V (Proc.devRef .tc r) :=
  (R5_of V r h4).trans (R4_of V r h3)

/-! ### The second layer -/

theorem R6_pre : R6 V (Proc.devRef .tc main_v64)
    = refBias (refAgg (Host.dotGeneral (F := Ideal) (φ₁ := .f32) (φ₂ := .f32) dot_S100000x64_S64x64_S100000x64_1_0_0_1_n_n none (refHidden1 (V (Proc.devRef .tc main_arg0)) (V (Proc.devRef .tc main_arg1)) (V (Proc.devRef .tc main_arg3)) (V (Proc.devRef .tc main_arg4))) (V (Proc.devRef .tc main_arg5) : FVec Ideal S64x64 .f32)) (V (Proc.devRef .tc main_arg1))) (V (Proc.devRef .tc main_arg6)) := by
  refine (st5_pre (R5 V)).trans ?_
  rw [R5_hidden, R5_keep V main_v5 (by decide) (by decide), R5_keep V main_v6 (by decide) (by decide), R5_keep V main_v29 (by decide) (by decide),
    R5_keep V main_arg5 (by decide) (by decide), R5_keep V main_arg6 (by decide) (by decide), R3_src, R3_dst, R3_norm,
    R3_launch V main_arg5 (by decide) (by decide) (by decide), R3_launch V main_arg6 (by decide) (by decide) (by decide)]
  rfl
theorem R6_slope : R6 V (Proc.devRef .tc main_cst_13) = (constant (F := Ideal) S_ .f32 0x3C23D70A#32) := st5_slope (R5 V)

/-- The second layer's hidden features. -/
theorem R7_hidden : R7 V (Proc.devRef .tc main_v65) = refHidden2 (V (Proc.devRef .tc main_arg0)) (V (Proc.devRef .tc main_arg1)) (V (Proc.devRef .tc main_arg3)) (V (Proc.devRef .tc main_arg4)) (V (Proc.devRef .tc main_arg5)) (V (Proc.devRef .tc main_arg6)) := by
  refine (st6_act (R6 V)).trans ?_
  rw [R6_pre, R6_slope]
  rfl

/-- A buffer no stage up to the seventh boundary writes holds its launch contents there. -/
theorem R7_launch (r : Ref sig .tc) (h0 : r ∉ ops0_W) (h1 : r ∉ ops1_W) (h2 : r ∉ ops2_W) (h3 : r ∉ ops3_W) (h4 : r ∉ ops4_W)
    (h5 : r ∉ ops5_W) (h6 : r ∉ ops6_W) : R7 V (Proc.devRef .tc r) = V (Proc.devRef .tc r) :=
  (R7_of V r h6).trans ((R6_of V r h5).trans ((R5_keep V r h3 h4).trans (R3_launch V r h0 h1 h2)))

/-! ### The row selection and the head -/

/-- The first result at the eighth boundary. -/
theorem R8_sel : R8 V (Proc.devRef .tc main_v72) = refSelected (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine (st7_sel (R7 V)).trans ?_
  rw [R7_hidden, R7_launch V main_arg2 (by decide) (by decide) (by decide) (by decide) (by decide) (by decide) (by decide)]
  rfl

/-- A buffer no stage up to the eighth boundary writes holds its launch contents there. -/
theorem R8_launch (r : Ref sig .tc) (h0 : r ∉ ops0_W) (h1 : r ∉ ops1_W) (h2 : r ∉ ops2_W) (h3 : r ∉ ops3_W) (h4 : r ∉ ops4_W)
    (h5 : r ∉ ops5_W) (h6 : r ∉ ops6_W) (h7 : r ∉ ops7_W) : R8 V (Proc.devRef .tc r) = V (Proc.devRef .tc r) :=
  (R8_of V r h7).trans (R7_launch V r h0 h1 h2 h3 h4 h5 h6)

/-- The first result after the last stage: the head only reads it. -/
theorem R9_sel : R9 V (Proc.devRef .tc main_v72) = refSelected (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (R9_of V main_v72 (by decide)).trans (R8_sel V)

/-- The second result after the last stage. -/
theorem R9_out : R9 V (Proc.devRef .tc main_v82) = refHead (refSelected (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (V (Proc.devRef .tc main_arg7)) (V (Proc.devRef .tc main_arg8)) := by
  refine (st8_head (R8 V)).trans ?_
  rw [R8_sel, R8_launch V main_arg7 (by decide) (by decide) (by decide) (by decide) (by decide) (by decide) (by decide) (by decide), R8_launch V main_arg8 (by decide) (by decide) (by decide) (by decide) (by decide) (by decide) (by decide) (by decide)]

/-- A buffer no stage writes holds its launch contents after the last. -/
theorem R9_launch (r : Ref sig .tc) (h0 : r ∉ ops0_W) (h1 : r ∉ ops1_W) (h2 : r ∉ ops2_W) (h3 : r ∉ ops3_W) (h4 : r ∉ ops4_W)
    (h5 : r ∉ ops5_W) (h6 : r ∉ ops6_W) (h7 : r ∉ ops7_W) (h8 : r ∉ ops8_W) : R9 V (Proc.devRef .tc r) = V (Proc.devRef .tc r) :=
  (R9_of V r h8).trans (R8_launch V r h0 h1 h2 h3 h4 h5 h6 h7)

end Chain

/-! ## The fold of @main's operations at the result buffers and at the arguments -/

/-- The first result's buffer ends at the reference's staged term of the arguments. -/
theorem v72_eq (V : Valuation τ sig (Elt Ideal)) :
    after ops V (Proc.devRef .tc main_v72) = refSelected (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (congrFun (after_ops_eq V) _).trans (R9_sel V)

/-- The second result's buffer ends at the reference's head of the first result. -/
theorem v82_eq (V : Valuation τ sig (Elt Ideal)) :
    after ops V (Proc.devRef .tc main_v82)
      = refHead (refSelected (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (V (Proc.devRef .tc main_arg7)) (V (Proc.devRef .tc main_arg8)) :=
  (congrFun (after_ops_eq V) _).trans (R9_out V)

theorem arg0_eq (V : Valuation τ sig (Elt Ideal)) : after ops V (Proc.devRef .tc main_arg0) = (V (Proc.devRef .tc main_arg0)) :=
  (congrFun (after_ops_eq V) _).trans (R9_launch V main_arg0 (by decide) (by decide) (by decide) (by decide) (by decide) (by decide) (by decide) (by decide) (by decide))
theorem arg1_eq (V : Valuation τ sig (Elt Ideal)) : after ops V (Proc.devRef .tc main_arg1) = (V (Proc.devRef .tc main_arg1)) :=
  (congrFun (after_ops_eq V) _).trans (R9_launch V main_arg1 (by decide) (by decide) (by decide) (by decide) (by decide) (by decide) (by decide) (by decide) (by decide))
theorem arg2_eq (V : Valuation τ sig (Elt Ideal)) : after ops V (Proc.devRef .tc main_arg2) = (V (Proc.devRef .tc main_arg2)) :=
  (congrFun (after_ops_eq V) _).trans (R9_launch V main_arg2 (by decide) (by decide) (by decide) (by decide) (by decide) (by decide) (by decide) (by decide) (by decide))
theorem arg3_eq (V : Valuation τ sig (Elt Ideal)) : after ops V (Proc.devRef .tc main_arg3) = (V (Proc.devRef .tc main_arg3)) :=
  (congrFun (after_ops_eq V) _).trans (R9_launch V main_arg3 (by decide) (by decide) (by decide) (by decide) (by decide) (by decide) (by decide) (by decide) (by decide))
theorem arg4_eq (V : Valuation τ sig (Elt Ideal)) : after ops V (Proc.devRef .tc main_arg4) = (V (Proc.devRef .tc main_arg4)) :=
  (congrFun (after_ops_eq V) _).trans (R9_launch V main_arg4 (by decide) (by decide) (by decide) (by decide) (by decide) (by decide) (by decide) (by decide) (by decide))
theorem arg5_eq (V : Valuation τ sig (Elt Ideal)) : after ops V (Proc.devRef .tc main_arg5) = (V (Proc.devRef .tc main_arg5)) :=
  (congrFun (after_ops_eq V) _).trans (R9_launch V main_arg5 (by decide) (by decide) (by decide) (by decide) (by decide) (by decide) (by decide) (by decide) (by decide))
theorem arg6_eq (V : Valuation τ sig (Elt Ideal)) : after ops V (Proc.devRef .tc main_arg6) = (V (Proc.devRef .tc main_arg6)) :=
  (congrFun (after_ops_eq V) _).trans (R9_launch V main_arg6 (by decide) (by decide) (by decide) (by decide) (by decide) (by decide) (by decide) (by decide) (by decide))
theorem arg7_eq (V : Valuation τ sig (Elt Ideal)) : after ops V (Proc.devRef .tc main_arg7) = (V (Proc.devRef .tc main_arg7)) :=
  (congrFun (after_ops_eq V) _).trans (R9_launch V main_arg7 (by decide) (by decide) (by decide) (by decide) (by decide) (by decide) (by decide) (by decide) (by decide))
theorem arg8_eq (V : Valuation τ sig (Elt Ideal)) : after ops V (Proc.devRef .tc main_arg8) = (V (Proc.devRef .tc main_arg8)) :=
  (congrFun (after_ops_eq V) _).trans (R9_launch V main_arg8 (by decide) (by decide) (by decide) (by decide) (by decide) (by decide) (by decide) (by decide) (by decide))

/-! ## The staged terms are the composite functions -/

theorem refAct_eq (a : FVec Ideal S100000x64 .f32) (b : FVec Ideal S64 .f32) : refAct a b = Cert.Spec.biasAct a b :=
  Cert.ReferenceIdeal.Index.act_eq a b

/-- The shared aggregation in the reference's spelling is the one in the kernel program's: the same operations over
    the same dimension numbers. -/
theorem refAgg_eq (h : FVec Ideal S100000x64 .f32) (ei : (⟨S2x1600000, .i32⟩ : BufTy).Contents (Elt Ideal)) :
    refAgg h ei = Cert.Composite.layerAgg h ei := rfl

theorem refHidden1_eq (x : FVec Ideal S100000x128 .f32) (ei : (⟨S2x1600000, .i32⟩ : BufTy).Contents (Elt Ideal))
    (W0 : FVec Ideal S128x64 .f32) (b0 : FVec Ideal S64 .f32) : refHidden1 x ei W0 b0 = Cert.Composite.hidden1 x ei W0 b0 := by
  unfold refHidden1 Cert.Composite.hidden1
  rw [refAct_eq, refAgg_eq, Cert.ReferenceIdeal.Index.dot0_eq]

theorem refHidden2_eq (x : FVec Ideal S100000x128 .f32) (ei : (⟨S2x1600000, .i32⟩ : BufTy).Contents (Elt Ideal))
    (W0 : FVec Ideal S128x64 .f32) (b0 : FVec Ideal S64 .f32) (W1 : FVec Ideal S64x64 .f32) (b1 : FVec Ideal S64 .f32) :
    refHidden2 x ei W0 b0 W1 b1 = Cert.Composite.hidden2 x ei W0 b0 W1 b1 := by
  unfold refHidden2 Cert.Composite.hidden2
  rw [refAct_eq, refAgg_eq, Cert.ReferenceIdeal.Index.dot1_eq, refHidden1_eq]

theorem refSelected_eq (x : FVec Ideal S100000x128 .f32) (ei : (⟨S2x1600000, .i32⟩ : BufTy).Contents (Elt Ideal))
    (idx : (⟨S20000, .i32⟩ : BufTy).Contents (Elt Ideal))
    (W0 : FVec Ideal S128x64 .f32) (b0 : FVec Ideal S64 .f32) (W1 : FVec Ideal S64x64 .f32) (b1 : FVec Ideal S64 .f32) :
    refSelected x ei idx W0 b0 W1 b1 = Cert.Composite.selected x ei idx W0 b0 W1 b1 := by
  unfold refSelected Cert.Composite.selected
  rw [refHidden2_eq]
  rfl

theorem refHead_eq (h : FVec Ideal S20000x64 .f32) (w : FVec Ideal S64x5 .f32) (b : FVec Ideal S5 .f32) :
    refHead h w b = Cert.Spec.head h w b :=
  Cert.ReferenceIdeal.Index.head_eq h w b

/-! ## The run, read -/

/-- From any memory with zero counters every weakly fair execution of the reference terminates, nothing faulting,
    with the two results at the composite functions of the arguments and the arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = Cert.Composite.selected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v82) = Cert.Composite.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v72).trans ((v72_eq (launchContents m c)).trans (refSelected_eq _ _ _ _ _ _ _)),
       (h c main_v82).trans ((v82_eq (launchContents m c)).trans ((refHead_eq _ _ _).trans (by rw [refSelected_eq]; rfl))),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c))⟩)
    (run_all m ρ)

end Cert.ReferenceIdeal.HandRun

end
-- ==== Proof.lean ====
/-
  The certificate. Both programs compute a two-layer graph convolution followed by a row selection and a logistic
  head: the kernel's program runs its three dense products and its two bias-and-leaky-rectifier stages as
  pipelined kernels over blocks of rows and leaves the gathers and scatter-adds to the host, the reference does
  everything on the host. At the ideal values (extended reals, exact operations) a block-wise product into a zero
  accumulator is the host's dot_general, the kernel's compare-multiply-select is the reference's leaky rectifier with the same
  slope literal, and the kernel's logistic is by definition the reference's 1 / (1 + exp (-y)); the host
  operations around them are the same in both programs. So each program ends with its two results at the same
  two functions of the nine arguments (the composite functions), with no use of the inputs' finiteness.
  The frames of the two kernel programs are their generated frame certificates; the reference's frame is its run
  with the results dropped; nothing was rewritten by the idealization, so preserving it asks nothing.
-/
import proofs.«159535_j30167850287800_1_alg».proof.Defs
import proofs.«159535_j30167850287800_1_alg».proof.Proof.Gen.Kernel
import proofs.«159535_j30167850287800_1_alg».proof.Proof.Gen.Kernel.Frame
import proofs.«159535_j30167850287800_1_alg».proof.Proof.Gen.KernelIdeal
import proofs.«159535_j30167850287800_1_alg».proof.Proof.Gen.KernelIdeal.Frame
import proofs.«159535_j30167850287800_1_alg».proof.Proof.Gen.ReferenceIdeal
import proofs.«159535_j30167850287800_1_alg».proof.Proof.Gen.Pre_finite_inputs
import proofs.«159535_j30167850287800_1_alg».proof.Proof.KRun
import proofs.«159535_j30167850287800_1_alg».proof.Proof.KChain
import proofs.«159535_j30167850287800_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.HandRun.run_results m ρ)

theorem preserves : Cert.preserves_Kernel_KernelIdeal := trivial

/-- From memories that agree on the nine arguments both programs end with the selected hidden rows and the head's
    output at the same composite functions of those arguments. -/
theorem algebraic : Cert.algebraic_KernelIdeal_ReferenceIdeal := by
  intro m ρ m' ρ' _ hagree
  refine ⟨fun (c : Dev Cert.KernelIdeal.nD) => Cert.Composite.selected (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun (c : Dev Cert.KernelIdeal.nD) => Cert.Composite.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.W11_sel m ρ c), (h c).2.1.trans (Cert.KernelIdeal.Chain.W11_out m ρ c), (h c).2.2⟩)
      (Cert.KernelIdeal.Gen.run_results (F := Ideal) m ρ)
  · refine (θ_run Cert.ReferenceIdeal.defs _ _).mono (fun _ h c => ?_) (Cert.ReferenceIdeal.HandRun.run_results m' ρ')
    obtain ⟨a0, a1, a2, a3, a4, a5, a6, a7, a8⟩ := hagree c
    exact ⟨(h c).1.trans (by rw [a0, a1, a2, a3, a4, a5, a6]), (h c).2.1.trans (by rw [a0, a1, a2, a3, a4, a5, a6, a7, a8]), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
